-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S4x128x128 : Shape := ⟨3, ![4, 128, 128]⟩
abbrev S1x1024x128 : Shape := ⟨3, ![1, 1024, 128]⟩
abbrev S1x128x128 : Shape := ⟨3, ![1, 128, 128]⟩
abbrev S128x128 : Shape := ⟨2, ![128, 128]⟩
abbrev S1024x128 : Shape := ⟨2, ![1024, 128]⟩

abbrev nBuf : Space → Nat
  | .hbm => 3
  | .vmem => 11
  | .smem => 0
  | _ => 0

abbrev bufTy : (tb : Table) → Fin (tcTables nBuf tb) → BufTy
  | .hbm, ⟨0, _⟩ => ⟨S4x4096x128, .f32⟩
  | .hbm, ⟨1, _⟩ => ⟨S4x128x128, .f32⟩
  | .hbm, ⟨2, _⟩ => ⟨S4x4096x128, .f32⟩
  | .local _ .vmem, ⟨0, _⟩ => ⟨S1x1024x128, .f32⟩
  | .local _ .vmem, ⟨1, _⟩ => ⟨S1x1024x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S1x1024x128, .f32⟩
  | .local _ .vmem, ⟨6, _⟩ => ⟨S1x1024x128, .f32⟩
  | .local _ .vmem, ⟨7, _⟩ => ⟨S1x128x128, .f32⟩
  | .local _ .vmem, ⟨8, _⟩ => ⟨S1x128x128, .f32⟩
  | .local _ .vmem, ⟨9, _⟩ => ⟨S1x1024x128, .f32⟩
  | .local _ .vmem, ⟨10, _⟩ => ⟨S1x1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S1024x128_S1x1024x128 : S1024x128.ShapeCasts S1x1024x128
  dot_S1024x128_S1024x128_S128x128_0_0_1_1_n_n_wf : DotDims.WF S1024x128 S1024x128 S128x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x128x128.size a
  hwx0_1 : ∀ i : grid0.Coords, EltTy.bits .f32 = 32 ∨ (Rect.block (s := S4x128x128) S1x128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .f32 = 32 ∨ (Rect.block (s := S4x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x128.size a
  hwx1_1 : ∀ i : grid1.Coords, EltTy.bits .f32 = 32 ∨ (Rect.block (s := S4x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x128.size a
  hwx1_2 : ∀ i : grid1.Coords, EltTy.bits .f32 = 32 ∨ (Rect.block (s := S4x4096x128) S1x1024x128.size (cc1_transform_2 i) (hinb1_2 i)).WholeWords (EltTy.packing .f32)

variable [Facts₀]

def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Kernel.GramCases.lean ====
/-
  The first pallas_call: the Gram matrix G[b] = x[b]ᵀ x[b], accumulated in a 128 x 128 scratch over the four tiles
  t = 0, 1, 2, 3 of 1024 rows.  At t = 0 the body first stores zeros over the scratch; at every t it adds the tile's
  product xtileᵀ · xtile to the scratch; at t = 3 it also copies the scratch into the output block, which is written
  back only there.  Grid point n = 4 b + t, so the body's two conditions are n % 4 = 0 and n % 4 = 3, and it runs in
  one of three ways.  This module: the conditions in closed form over the 16 grid points, where the output window
  is idle, and the body's run in each of the three cases, on whole staging buffers and at any input block.
  Stated at a parameter `V`: what the unscoped buffers hold when the region is entered.
-/
import proofs.«112945_j52261162058329_1_alg».proof.Proof.Gen.Kernel.Launch
import proofs.«112945_j52261162058329_1_alg».proof.Proof.Gen.Kernel.Skeleton
import proofs.«112945_j52261162058329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The x-window's blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x-window's staging buffer holds the point's tile of x at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The two conditions, over the grid -/

/-- "This is the batch's first tile" (t = 0), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the batch's last tile" (t = 3). -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The x-window is never idle. -/
theorem xLive : ∀ t : Fin cfg0.N, cfg0.idle 0 (grid0.coords t) = false := by decide +kernel
/-- Off the last tile the output window is idle and not written back. -/
theorem gIdle : ∀ t : Fin cfg0.N, ¬isLast (grid0.coords t) → cfg0.idle 1 (grid0.coords t) = true := by decide +kernel
theorem gNoFlush : ∀ t : Fin cfg0.N, ¬isLast (grid0.coords t) → (cfg0.win 1).flush t = false := by decide +kernel
/-- On the last tile it is live. -/
theorem gLive : ∀ t : Fin cfg0.N, isLast (grid0.coords t) → cfg0.idle 1 (grid0.coords t) = false := by decide +kernel

/-! ## The memrefs the body is called with -/

abbrev xMem (t : Fin cfg0.N) : Memref sig .tc .vmem S1x1024x128 .f32 := win0_0.stage (cfg0.slots t 0)
abbrev xMem_whole (t : Fin cfg0.N) : (xMem t).IsWhole := hstage0_0 ((cfg0.slots t 0).cast nbuf0_0)
abbrev gMem (t : Fin cfg0.N) : Memref sig .tc .vmem S1x128x128 .f32 := win0_1.stage (cfg0.slots t 1)
abbrev gMem_whole (t : Fin cfg0.N) : (gMem t).IsWhole := hstage0_1 ((cfg0.slots t 1).cast nbuf0_1)
/-- The accumulator: a whole scoped buffer of the kernel's own. -/
abbrev accMem : Memref sig .tc .vmem S128x128 .f32 := Memref.whole cc0_scratch0
/-- The views through which the accumulator's and the output block's contents are stated. -/
abbrev accView : View sig .tc .vmem S128x128 .f32 := accMem.view
abbrev gView : View sig .tc .vmem S1x128x128 .f32 := (Memref.whole cc0_stg1_0 : Memref sig .tc .vmem S1x128x128 .f32).view

/-- The scoped buffers that are neither this region's staging buffers nor its accumulator — the second pallas_call's
    staging buffers —, each whole at some contents: the body never touches them. -/
def otherBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant holds besides the windows: the accumulator at some contents, those other buffers,
    and the generator register at some state. -/
theorem restInv_eq (c : Dev nD) :
    (Pipeline.ΦA spec0 c : sProp 𝕄)
      = iprop(iprop((∃ d, owns (c : Thread nD τ) accMem fullShare d) ∗ otherBufs (F := F) c) ∗ (∃ r, prngReg c r)) := by
  unfold Pipeline.ΦA; rw [scopedRest0_eq]; simp only [accMem, owns_whole]; try rfl

/-! ## The body's run in each case

Each is a pair of piece lists — what the run's stores leave in the output block and in the accumulator, last store
first — with the proof that the body, started on whole buffers, runs to a continuation holding them written. The
pieces are found by running the body. -/

set_option maxHeartbeats 1000000 in
/-- FIRST tile (t = 0): zeros stored over the accumulator, then the tile's product added; the output block untouched. -/
noncomputable def runFirst (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) :
    Σ' (L1 : List (View.Piece (Elt F) S1x128x128 .f32)), { LS0 : List (View.Piece (Elt F) S128x128 .f32) //
      ∀ (xi1 : Vec F S1x128x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨[], ?_, fun xi1 E K => ?run⟩
  case run =>
    simp only [cc0__g_kernel_eq_skeleton]; unfold cc0__g_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE tile (t = 1, 2): the tile's product added to the accumulator found at `xs0`; the output block untouched. -/
noncomputable def runMiddle (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) :
    Σ' (L1 : List (View.Piece (Elt F) S1x128x128 .f32)), { LS0 : List (View.Piece (Elt F) S128x128 .f32) //
      ∀ (xi1 : Vec F S1x128x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨[], ?_, fun xi1 E K => ?run⟩
  case run =>
    simp only [cc0__g_kernel_eq_skeleton]; unfold cc0__g_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST tile (t = 3): the tile's product added to the accumulator found at `xs0`, and the sum copied over the
    output block. -/
noncomputable def runLast (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) :
    Σ' (L1 : List (View.Piece (Elt F) S1x128x128 .f32)), { LS0 : List (View.Piece (Elt F) S128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨?_, ?_, fun E K => ?run⟩
  case run =>
    simp only [cc0__g_kernel_eq_skeleton]; unfold cc0__g_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Run

end
-- ==== Proof.Kernel.GramRegion.lean ====
/-
  The first pallas_call, continued: what each of the body's three runs leaves in the accumulator and in the output
  block; the accumulation over the grid points n = 4 b + t (a batch's first tile starts it afresh, every later tile
  adds to what the tile before left, the last tile's sum is also the output block); the region's invariant, which
  carries the accumulator from one point to the next at exactly that contents; the pipeline's proof data; and the
  body obligation at every point.
-/
import proofs.«112945_j52261162058329_1_alg».proof.Proof.Kernel.GramCases

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first tile's stores into the accumulator cover it. -/
theorem firstAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) (y : S128x128.Idx) :
    ∃ pc ∈ (runFirst c i arg2 harg2 arg3 harg3 arg4 harg4 hc0 hc1 x0).2.1, y ∈ pc.1.set :=
  View.cover_of_tiledL (runFirst c i arg2 harg2 arg3 harg3 arg4 harg4 hc0 hc1 x0).2.1 S128x128.size (by sl_kernel_rfl) y

/-- The accumulator after a batch's first tile: zeros, then the tile's product added. -/
def firstAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) : Vec F S128x128 .f32 :=
  accView.read (Elt F) (accView.writes (Elt F) accView.junk (runFirst c i arg2 harg2 arg3 harg3 arg4 harg4 hc0 hc1 x0).2.1)

theorem middleAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) (y : S128x128.Idx) :
    ∃ pc ∈ (runMiddle c i arg2 harg2 arg3 harg3 arg4 harg4 hc0 hc1 x0 xs0).2.1, y ∈ pc.1.set :=
  View.cover_of_tiledL (runMiddle c i arg2 harg2 arg3 harg3 arg4 harg4 hc0 hc1 x0 xs0).2.1 S128x128.size (by sl_kernel_rfl) y

/-- The accumulator after a middle tile: the tile's product added to what it held (`xs0`). -/
def middleAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) : Vec F S128x128 .f32 :=
  accView.read (Elt F) (accView.writes (Elt F) accView.junk (runMiddle c i arg2 harg2 arg3 harg3 arg4 harg4 hc0 hc1 x0 xs0).2.1)

theorem lastAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) (y : S128x128.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S128x128.size (by sl_kernel_rfl) y

/-- The accumulator after the last tile. -/
def lastAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) : Vec F S128x128 .f32 :=
  accView.read (Elt F) (accView.writes (Elt F) accView.junk (runLast c i arg2 harg2 arg3 harg3 arg4 harg4 hc0 hc1 x0 xs0).2.1)

theorem lastOut_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) (y : S1x128x128.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x128x128.size (by sl_kernel_rfl) y

/-- The output block after the last tile: the accumulator's final sum, copied. -/
def lastOut (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) : Vec F S1x128x128 .f32 :=
  gView.read (Elt F) (gView.writes (Elt F) gView.junk (runLast c i arg2 harg2 arg3 harg3 arg4 harg4 hc0 hc1 x0 xs0).1)

/-- Off the last tile the output block is not stored into, not written back and not read at the next point: what is
    recorded for it there is never consulted. -/
def idleOut : Vec F S1x128x128 .f32 := gView.read (Elt F) (gView.writes (Elt F) gView.junk [])

/-! ## The accumulation over the grid points -/

/-- What the output block and the accumulator hold after the body at point `n` (a pair): the case the closed forms
    select, run on the point's tile of x, a later tile over what the point before left in the accumulator. -/
def gramAt (c : Dev nD) : (n : ℕ) → n < cfg0.N → Vec F S1x128x128 .f32 × Vec F S128x128 .f32
  | 0, hn => (idleOut, firstAcc c (grid0.coords ⟨0, hn⟩) (xMem ⟨0, hn⟩) (xMem_whole ⟨0, hn⟩) (gMem ⟨0, hn⟩) (gMem_whole ⟨0, hn⟩) accMem (Memref.isWhole_whole _) ((isFirst_iff ⟨0, hn⟩).mpr (Nat.zero_mod _)) (fun h => (fun h => by (try dsimp only at h); omega) ((isLast_iff ⟨0, hn⟩).mp h)) (blk0 V c 0 ⟨0, hn⟩))
  | n + 1, hn =>
    if h0 : (n + 1) % 4 = 0 then
      (idleOut, firstAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) ((isFirst_iff ⟨n + 1, hn⟩).mpr h0) (fun h => (fun h => by (try dsimp only at h); omega) ((isLast_iff ⟨n + 1, hn⟩).mp h)) (blk0 V c 0 ⟨n + 1, hn⟩))
    else
      if h1 : (n + 1) % 4 = 3 then
        (lastOut c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) ((isLast_iff ⟨n + 1, hn⟩).mpr h1) (blk0 V c 0 ⟨n + 1, hn⟩) (gramAt c n (Nat.lt_of_succ_lt hn)).2,
         lastAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) ((isLast_iff ⟨n + 1, hn⟩).mpr h1) (blk0 V c 0 ⟨n + 1, hn⟩) (gramAt c n (Nat.lt_of_succ_lt hn)).2)
      else
        (idleOut, middleAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) (fun h => h1 ((isLast_iff ⟨n + 1, hn⟩).mp h)) (blk0 V c 0 ⟨n + 1, hn⟩) (gramAt c n (Nat.lt_of_succ_lt hn)).2)

/-- At a batch's first tile. -/
theorem gramAt_first (c : Dev nD) (t : Fin cfg0.N) (h0 : t.val % 4 = 0) (h1 : ¬t.val % 4 = 3) :
    gramAt V c t.val t.isLt = (idleOut, firstAcc c (grid0.coords t) (xMem t) (xMem_whole t) (gMem t) (gMem_whole t) accMem (Memref.isWhole_whole _) ((isFirst_iff t).mpr h0) (fun h => h1 ((isLast_iff t).mp h)) (blk0 V c 0 t)) := by
  obtain ⟨n, hn⟩ := t
  cases n with
  | zero => exact rfl
  | succ n => exact (dif_pos h0).trans rfl

/-- At a middle tile: over what the point before left. -/
theorem gramAt_middle (c : Dev nD) (t : Fin cfg0.N) (h0 : ¬t.val % 4 = 0) (h1 : ¬t.val % 4 = 3) :
    gramAt V c t.val t.isLt = (idleOut, middleAcc c (grid0.coords t) (xMem t) (xMem_whole t) (gMem t) (gMem_whole t) accMem (Memref.isWhole_whole _) (fun h => h0 ((isFirst_iff t).mp h)) (fun h => h1 ((isLast_iff t).mp h)) (blk0 V c 0 t) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last tile: over what the point before left. -/
theorem gramAt_last (c : Dev nD) (t : Fin cfg0.N) (h0 : ¬t.val % 4 = 0) (h1 : t.val % 4 = 3) :
    gramAt V c t.val t.isLt = (lastOut c (grid0.coords t) (xMem t) (xMem_whole t) (gMem t) (gMem_whole t) accMem (Memref.isWhole_whole _) (fun h => h0 ((isFirst_iff t).mp h)) ((isLast_iff t).mpr h1) (blk0 V c 0 t) (gramAt V c (t.val - 1) (Nat.lt_of_le_of_lt (Nat.sub_le _ _) t.isLt)).2,
      lastAcc c (grid0.coords t) (xMem t) (xMem_whole t) (gMem t) (gMem_whole t) accMem (Memref.isWhole_whole _) (fun h => h0 ((isFirst_iff t).mp h)) ((isLast_iff t).mpr h1) (blk0 V c 0 t) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before point `n`: at the very first point the accumulator holds anything; afterwards exactly what the point
    before left in it. Beside it, the generator register at some state. -/
def gramInv (c : Dev nD) : (n : ℕ) → n ≤ cfg0.N → sProp 𝕄
  | 0, _ => Pipeline.ΦA spec0 c
  | n + 1, hn => iprop(iprop(owns (c : Thread nD τ) accMem fullShare ((gramAt V c n hn).2) ∗ otherBufs (F := F) c) ∗ (∃ r, prngReg c r))

theorem gramInv_zero (c : Dev nD) (n : ℕ) (h : n ≤ cfg0.N) (hz : n = 0) : gramInv V c n h = Pipeline.ΦA spec0 c := by
  subst hz; rfl

theorem gramInv_succ (c : Dev nD) (n : ℕ) (hn : n < cfg0.N) :
    gramInv V c (n + 1) hn = iprop(iprop(owns (c : Thread nD τ) accMem fullShare ((gramAt V c n hn).2) ∗ otherBufs (F := F) c) ∗ (∃ r, prngReg c r)) := rfl

theorem gramInv_pos (c : Dev nD) (n : ℕ) (h : n ≤ cfg0.N) (hz : n ≠ 0) :
    gramInv V c n h = iprop(iprop(owns (c : Thread nD τ) accMem fullShare ((gramAt V c (n - 1) (by omega)).2) ∗ otherBufs (F := F) c) ∗ (∃ r, prngReg c r)) := by
  cases n with
  | zero => exact absurd rfl hz
  | succ n => rfl

/-! ## The proof data -/

/-- The pipeline's proof data on core `c`: the arrays as found; after the body the x-window's buffer still at its
    tile and the output window's at `gramAt`'s first component; the invariant `gramInv`; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (gramAt V c t.val t.isLt).1
  Φ t := gramInv V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = gramInv V c t.val (Nat.le_of_lt t.isLt) := by
  dsimp only [dat0]; simp only [Fin.coe_castSucc]

theorem dat0_after0 (c : Dev nD) (t : Fin cfg0.N) : (dat0 V c).after 0 t = blk0 V c 0 t := by dsimp only [dat0]
theorem dat0_after1 (c : Dev nD) (t : Fin cfg0.N) : (dat0 V c).after 1 t = (gramAt V c t.val t.isLt).1 := by dsimp only [dat0]

theorem dat0_before0 (c : Dev nD) (t : Fin cfg0.N) (d) : (dat0 V c).before 0 t d = blk0 V c 0 t :=
  found0_0 V (dat0 V c) (dat0_A V c 0) (dat0_after0 V c) t d

/-! ## The body obligation -/

def gramPre (c : Dev nD) (t : Fin cfg0.N) : sProp 𝕄 :=
  iprop((dat0 V c).Φ t.castSucc ∗ (dat0 V c).owesAt () t.castSucc
    ∗ (∃ d, owns (c : Thread nD τ) (xMem t) fullShare ((dat0 V c).before 0 t d))
    ∗ (∃ d, owns (c : Thread nD τ) (gMem t) fullShare ((dat0 V c).before 1 t d)))

def gramPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The x-window's buffer holds its tile; the closed forms say which of the three cases the
    point is in; the invariant hands the body the accumulator — at anything at the very first point, else at what the
    point before left — and takes it back at this point's contents; the output block is handed back untouched off
    the last tile and with the final sum on it. -/
theorem gramBody_sound (c : Dev nD) (t : Fin cfg0.N) :
    gramPre V c t ⊢ wp frame (wpE (defs₀ (F := F)) Variants.none c none) Set.univ (bodyAt0 t) (fun _ => gramPost V c t) := by
  unfold gramPre gramPost bodyAt0
  simp only [dat0_before0]
  rw [show (dat0 V c).owesAt () t.succ = (dat0 V c).owesAt () t.castSucc from rfl]
  rw [show (dat0 V c).Φ t.succ = gramInv V c (t.val + 1) t.isLt from rfl, gramInv_succ]
  have hN : t.val < 16 := lt_of_lt_of_eq t.isLt (show cfg0.N = 16 from N_0)
  rw [show (dat0 V c).leavesExact 0 t = owns (c : Thread nD τ) (xMem t) fullShare ((dat0 V c).after 0 t) from by
    unfold Dat.leavesExact; rw [xLive t], dat0_after0]
  by_cases h0 : t.val % 4 = 0
  · have h1 : ¬t.val % 4 = 3 := by omega
    have hl : ¬isLast (grid0.coords t) := fun h => h1 ((isLast_iff t).mp h)
    rw [Dat.leavesExact_idle (dat0 V c) 1 t (gIdle t hl) (gNoFlush t hl)]
    rw [gramAt_first V c t h0 h1]
    unfold firstAcc; (try dsimp only)
    by_cases hz : t.val = 0
    · rw [dat0_inv_castSucc V c t, gramInv_zero V c _ _ hz, restInv_eq]
      iintro ⟨⟨⟨HS0, Hob⟩, Hg⟩, Ho, ⟨%d0, H0⟩, ⟨%d1, H1⟩⟩
      iapply ((runFirst c (grid0.coords t) _ _ _ _ _ _ ((isFirst_iff t).mpr h0) hl (blk0 V c 0 t)).2.2 _ Set.univ _)
      isplitl [H0]; · iexact H0
      isplitl [H1]; · iexact H1
      isplitl [HS0]; · iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (firstAcc_cover c _ _ _ _ _ _ _ _ _ _)
      isplitl [Ho]; · iexact Ho
      isplitl [H0]; · iexact H0
      iexists _; iexact H1
    · rw [dat0_inv_castSucc V c t, gramInv_pos V c _ _ hz]
      iintro ⟨⟨⟨HS0, Hob⟩, Hg⟩, Ho, ⟨%d0, H0⟩, ⟨%d1, H1⟩⟩
      iapply ((runFirst c (grid0.coords t) _ _ _ _ _ _ ((isFirst_iff t).mpr h0) hl (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (firstAcc_cover c _ _ _ _ _ _ _ _ _ _)
      isplitl [Ho]; · iexact Ho
      isplitl [H0]; · iexact H0
      iexists _; iexact H1
  · have hf : ¬isFirst (grid0.coords t) := fun h => h0 ((isFirst_iff t).mp h)
    have hz : t.val ≠ 0 := fun e => h0 (by rw [e])
    by_cases h1 : t.val % 4 = 3
    · have hl : isLast (grid0.coords t) := (isLast_iff t).mpr h1
      rw [show (dat0 V c).leavesExact 1 t = owns (c : Thread nD τ) (gMem t) fullShare ((dat0 V c).after 1 t) from by
        unfold Dat.leavesExact; rw [gLive t hl], dat0_after1]
      rw [gramAt_last V c t h0 h1]
      unfold lastOut lastAcc; (try dsimp only)
      rw [dat0_inv_castSucc V c t, gramInv_pos V c _ _ hz]
      iintro ⟨⟨⟨HS0, Hob⟩, Hg⟩, Ho, ⟨%d0, H0⟩, ⟨%d1, H1⟩⟩
      iapply ((runLast c (grid0.coords t) _ _ _ _ _ _ hf hl (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (lastAcc_cover c _ _ _ _ _ _ _ _ _ _ _)
      isplitl [Ho]; · iexact Ho
      isplitl [H0]; · iexact H0
      unfold owns; iexists _; isplitr
      swap; · iexact H1
      ipureintro; exact View.read_writes_of_cover _ _ _ _ _ (lastOut_cover c _ _ _ _ _ _ _ _ _ _ _)
    · have hl : ¬isLast (grid0.coords t) := fun h => h1 ((isLast_iff t).mp h)
      rw [Dat.leavesExact_idle (dat0 V c) 1 t (gIdle t hl) (gNoFlush t hl)]
      rw [gramAt_middle V c t h0 h1]
      unfold middleAcc; (try dsimp only)
      rw [dat0_inv_castSucc V c t, gramInv_pos V c _ _ hz]
      iintro ⟨⟨⟨HS0, Hob⟩, Hg⟩, Ho, ⟨%d0, H0⟩, ⟨%d1, H1⟩⟩
      iapply ((runMiddle c (grid0.coords t) _ _ _ _ _ _ hf hl (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (middleAcc_cover c _ _ _ _ _ _ _ _ _ _ _)
      isplitl [Ho]; · iexact Ho
      isplitl [H0]; · iexact H0
      iexists _; iexact H1

/-- The library's body obligation, at every point. -/
theorem gramBody_obligation (c : Dev nD) : BodyObligation (dat0 (F := F) V c) (defs₀ (F := F)) Variants.none () Set.univ := fun t => by
  rw [bigSep_W0, bigSep_W0]
  exact gramBody_sound V c t

/-- What the region is handed is the invariant before the first point. -/
theorem gramInv_in (c : Dev nD) : Pipeline.ΦA spec0 c ⊢ (dat0 V c).Φ 0 := by
  rw [show (dat0 V c).Φ 0 = gramInv V c 0 (Nat.zero_le _) from rfl, gramInv_zero V c 0 _ rfl]
  try exact Idealize.SL.BI.Entails.refl _

/-- After the last point the invariant gives that back: the accumulator's contents are forgotten. -/
theorem gramInv_out (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = gramInv V c (Fin.last cfg0.N).val (Nat.le_of_lt_succ (Fin.last cfg0.N).isLt) from rfl,
    gramInv_pos V c _ _ ht, restInv_eq]
  iintro ⟨⟨HS0, Hob⟩, Hg⟩
  isplitl [HS0 Hob]
  · isplitl [HS0]
    · iexists _; iexact HS0
    iexact Hob
  iexact Hg

end Cert.Kernel.Run

end
-- ==== Proof.Kernel.OutRegion.lean ====
/-
  The second pallas_call: out[b, 1024 t .. 1024 t + 1023, :] = x-block · G[b].  At every grid point (b, t) the body
  loads the point's 1024 x 128 block of x and the 128 x 128 block of the Gram array, multiplies them and stores the
  product over the whole output block; it keeps nothing between points and branches on nothing.  Stated at a
  parameter `V`: what the unscoped buffers hold when the region is entered.
-/
import proofs.«112945_j52261162058329_1_alg».proof.Proof.Gen.Kernel.Launch
import proofs.«112945_j52261162058329_1_alg».proof.Proof.Gen.Kernel.Skeleton
import proofs.«112945_j52261162058329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x-window's staging buffer holds the point's block of x at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Gram window's staging buffer holds batch b's block at every point: fetched at t = 0, and at t > 0 the block
    index has not moved, so the buffer still holds it. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output block -/

/-- The whole 1 x 1024 x 128 block, as a rectangle. -/
abbrev whole1 : Rect S1x1024x128 := Rect.unit (s := S1x1024x128) ![0, 0, 0] S1x1024x128.size inb_S1x1024x128_S1x1024x128_0_0_0
/-- The whole 1 x 128 x 128 block. -/
abbrev wholeG : Rect S1x128x128 := Rect.unit (s := S1x128x128) ![0, 0, 0] S1x128x128.size inb_S1x128x128_S1x128x128_0_0_0

/-- The output block after the body: its one store, the product of the two loaded blocks, read back. -/
def prodBlk (x0 : Vec F S1x1024x128 .f32) (g0 : Vec F S1x128x128 .f32) : Vec F S1x1024x128 .f32 :=
  View.canon [⟨whole1, k1_pay1 (View.ld x0 whole1) (View.ld g0 wholeG)⟩]

/-- The one store covers the block. -/
theorem prodBlk_cover (p0 : Vec F S1x1024x128 .f32) (y : S1x1024x128.Idx) :
    ∃ pc ∈ ([⟨whole1, p0⟩] : List (View.Piece (Elt F) S1x1024x128 .f32)), y ∈ pc.1.set :=
  View.cover_of_tiled [⟨whole1, p0⟩] S1x1024x128.size (by rfl) y

/-! ## The body's triple -/

set_option maxHeartbeats 1000000 in
/-- On whole staging buffers — the two inputs' at known contents, the output's at anything — the body runs to a
    continuation that holds the inputs' as they were and the output's at `prodBlk` of them. -/
theorem outBody_triple (c : Dev nD) (E : Set ℕ) (i : grid1.Coords)
    (arg2 : Memref sig .tc .vmem S1x1024x128 .f32) (harg2 : arg2.IsWhole) (arg3 : Memref sig .tc .vmem S1x128x128 .f32) (harg3 : arg3.IsWhole)
    (arg4 : Memref sig .tc .vmem S1x1024x128 .f32) (harg4 : arg4.IsWhole)
    (x0 : Vec F S1x1024x128 .f32) (g0 : Vec F S1x128x128 .f32) (K : PUnit → sProp 𝕄) :
    iprop(owns (c : Thread nD τ) arg2 fullShare x0 ∗ owns (c : Thread nD τ) arg3 fullShare g0 ∗ (∃ d, owns (c : Thread nD τ) arg4 fullShare d)
        ∗ (iprop(owns (c : Thread nD τ) arg2 fullShare x0 ∗ owns (c : Thread nD τ) arg3 fullShare g0 ∗ owns (c : Thread nD τ) arg4 fullShare (prodBlk x0 g0)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlk_cover _)

/-! ## The proof data -/

/-- The pipeline's proof data on core `c`: the arrays as found; after the body each input's buffer still at its
    block and the output's at the product of the two; the invariant is only the buffers no window stages and the
    generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prodBlk (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = prodBlk (blk1 V c 0 t) (blk1 V c 1 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d

/-! ## The body obligation -/

/-- What the body is called with at point `t`, -/
def outPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def outPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem outBody_sound (c : Dev nD) (t : Fin cfg1.N) :
    outPre V c t ⊢ wp frame (wpE (defs₀ (F := F)) Variants.none c none) Set.univ (bodyAt1 t) (fun _ => outPost V c t) := by
  unfold outPre outPost bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (outBody_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem outBody_obligation (c : Dev nD) : BodyObligation (dat1 (F := F) V c) (defs₀ (F := F)) Variants.none () Set.univ := fun t => by
  rw [bigSep_W1, bigSep_W1]
  exact outBody_sound V c t

end Cert.Kernel.Run

end
-- ==== Proof.Kernel.Launch.lean ====
/-
  @main is the two pallas_calls in a row, with no host operation around them. This module follows the unscoped
  buffers through it: at launch they hold the memory `m`; the Gram region changes only its output array, which ends
  at what its write-backs leave; the product region then changes only the result array. Each region is a segment
  entered from one of these states and left at the next, and the run of @main ends with the result array at what
  the product region's write-backs leave and the argument array as launched.
-/
import proofs.«112945_j52261162058329_1_alg».proof.Proof.Kernel.GramRegion
import proofs.«112945_j52261162058329_1_alg».proof.Proof.Kernel.OutRegion

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the Gram region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem left0 (c : Dev nD) (w : Fin cfg0.W) : (dat0 (V0 m) c).arrAt w cfg0.N = V1 m c (Pipeline.arrRef spec0 w) :=
  (W1_arr m c w).symm
theorem kept0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem left1 (c : Dev nD) (w : Fin cfg1.W) : (dat1 (V1 m) c).arrAt w cfg1.N = V2 m c (Pipeline.arrRef spec1 w) :=
  (W2_arr m c w).symm
theorem kept1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the regions find and leave, by name -/

/-- The product region finds the argument array as launched: the Gram region only reads it. -/
theorem V1_arg (c : Dev nD) : V1 m c main_arg0 = m ((c : Thread nD τ).loc main_arg0) :=
  (W1_arr m c 0).trans (((dat0 (V0 m) c).arrAt_in 0 rfl _).trans (dat0_A (V0 m) c 0))
/-- It finds the Gram array at what the Gram region's write-backs left. -/
theorem V1_gram (c : Dev nD) : V1 m c main_v0 = (dat0 (V0 m) c).arrAt 1 cfg0.N := W1_arr m c 1
/-- The argument array ends as launched: the product region only reads it too. -/
theorem W2_arg (c : Dev nD) : W2 m c (Proc.devRef .tc main_arg0) = m ((c : Thread nD τ).loc main_arg0) :=
  ((W2_arr m c 0).trans (((dat1 (V1 m) c).arrAt_in 0 rfl _).trans (dat1_A (V1 m) c 0))).trans (V1_arg m c)
/-- The result array ends at what the product region's write-backs leave. -/
theorem W2_out (c : Dev nD) : W2 m c (Proc.devRef .tc main_v1) = (dat1 (V1 m) c).arrAt 2 cfg1.N := W2_arr m c 2

/-! ## The proof data family and the thread states -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The Gram region as a segment of @main: entered with every unscoped buffer at `W0`, left with them at
    `W1`. Its windows' arrays are split out of the unscoped buffers at entry and put back at what the write-backs
    leave at exit; the generator register goes into the region's invariant and comes back; nothing is owed and the
    kernel has no semaphore of its own. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (gramBody_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest spec0 c ∗ ∃ r, prngReg c r) : sProp 𝕄) ⊢ (pdats m 0 c).Φ 0 := by
      have h := gramInv_in (V0 m) c; unfold Pipeline.ΦA at h; exact h
    iintro ⟨Hp, -, Hr⟩
    iapply hΦ
    isplitl [Hr]; · iexact Hr
    iexact Hp
  hout c := by
    rw [Pipeline.ownSems0_none]
    have hΦ : (pdats m 0 c).Φ (Fin.last _) ⊢ (iprop(Pipeline.scopedRest spec0 c ∗ ∃ r, prngReg c r) : sProp 𝕄) := by
      have h := gramInv_out (V0 m) c; unfold Pipeline.ΦA at h; exact h
    have hY : (iprop(Pipeline.scopedRest spec0 c ∗ ∃ r, prngReg c r) : sProp 𝕄)
        ⊢ iprop((∃ r, prngReg c r) ∗ emp ∗ Pipeline.scopedRest spec0 c) := by
      iintro ⟨Hr, Hp⟩
      isplitl [Hp]; · iexact Hp
      isplitr; · iempintro
      iexact Hr
    iintro H
    iapply hY
    iapply hΦ
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region as a segment of @main: entered with every unscoped buffer at `W1`, left with them at
    `W2`. Its windows' arrays are split out of the unscoped buffers at entry and put back at what the write-backs
    leave at exit; the generator register goes into the region's invariant and comes back; nothing is owed and the
    kernel has no semaphore of its own. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (outBody_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (seg0 m), .region (seg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    with the result array at what the product region's write-backs leave and the argument array as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_out m c),
       (h c _ (mem_uc main_arg0 (by decide))).trans (W2_arg m c)⟩)

/-- THE FRAME: the run, with what it says of the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Run

end
-- ==== Proof.KernelIdeal.GramCases.lean ====
/-
  The first pallas_call: the Gram matrix G[b] = x[b]ᵀ x[b], accumulated in a 128 x 128 scratch over the four tiles
  t = 0, 1, 2, 3 of 1024 rows.  At t = 0 the body first stores zeros over the scratch; at every t it adds the tile's
  product xtileᵀ · xtile to the scratch; at t = 3 it also copies the scratch into the output block, which is written
  back only there.  Grid point n = 4 b + t, so the body's two conditions are n % 4 = 0 and n % 4 = 3, and it runs in
  one of three ways.  This module: the conditions in closed form over the 16 grid points, where the output window
  is idle, and the body's run in each of the three cases, on whole staging buffers and at any input block.
  Stated at a parameter `V`: what the unscoped buffers hold when the region is entered.
-/
import proofs.«112945_j52261162058329_1_alg».proof.Proof.Gen.KernelIdeal.Launch
import proofs.«112945_j52261162058329_1_alg».proof.Proof.Gen.KernelIdeal.Skeleton
import proofs.«112945_j52261162058329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The x-window's blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x-window's staging buffer holds the point's tile of x at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The two conditions, over the grid -/

/-- "This is the batch's first tile" (t = 0), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the batch's last tile" (t = 3). -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The x-window is never idle. -/
theorem xLive : ∀ t : Fin cfg0.N, cfg0.idle 0 (grid0.coords t) = false := by decide +kernel
/-- Off the last tile the output window is idle and not written back. -/
theorem gIdle : ∀ t : Fin cfg0.N, ¬isLast (grid0.coords t) → cfg0.idle 1 (grid0.coords t) = true := by decide +kernel
theorem gNoFlush : ∀ t : Fin cfg0.N, ¬isLast (grid0.coords t) → (cfg0.win 1).flush t = false := by decide +kernel
/-- On the last tile it is live. -/
theorem gLive : ∀ t : Fin cfg0.N, isLast (grid0.coords t) → cfg0.idle 1 (grid0.coords t) = false := by decide +kernel

/-! ## The memrefs the body is called with -/

abbrev xMem (t : Fin cfg0.N) : Memref sig .tc .vmem S1x1024x128 .f32 := win0_0.stage (cfg0.slots t 0)
abbrev xMem_whole (t : Fin cfg0.N) : (xMem t).IsWhole := hstage0_0 ((cfg0.slots t 0).cast nbuf0_0)
abbrev gMem (t : Fin cfg0.N) : Memref sig .tc .vmem S1x128x128 .f32 := win0_1.stage (cfg0.slots t 1)
abbrev gMem_whole (t : Fin cfg0.N) : (gMem t).IsWhole := hstage0_1 ((cfg0.slots t 1).cast nbuf0_1)
/-- The accumulator: a whole scoped buffer of the kernel's own. -/
abbrev accMem : Memref sig .tc .vmem S128x128 .f32 := Memref.whole cc0_scratch0
/-- The views through which the accumulator's and the output block's contents are stated. -/
abbrev accView : View sig .tc .vmem S128x128 .f32 := accMem.view
abbrev gView : View sig .tc .vmem S1x128x128 .f32 := (Memref.whole cc0_stg1_0 : Memref sig .tc .vmem S1x128x128 .f32).view

/-- The scoped buffers that are neither this region's staging buffers nor its accumulator — the second pallas_call's
    staging buffers —, each whole at some contents: the body never touches them. -/
def otherBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant holds besides the windows: the accumulator at some contents, those other buffers,
    and the generator register at some state. -/
theorem restInv_eq (c : Dev nD) :
    (Pipeline.ΦA spec0 c : sProp 𝕄)
      = iprop(iprop((∃ d, owns (c : Thread nD τ) accMem fullShare d) ∗ otherBufs (F := F) c) ∗ (∃ r, prngReg c r)) := by
  unfold Pipeline.ΦA; rw [scopedRest0_eq]; simp only [accMem, owns_whole]; try rfl

/-! ## The body's run in each case

Each is a pair of piece lists — what the run's stores leave in the output block and in the accumulator, last store
first — with the proof that the body, started on whole buffers, runs to a continuation holding them written. The
pieces are found by running the body. -/

set_option maxHeartbeats 1000000 in
/-- FIRST tile (t = 0): zeros stored over the accumulator, then the tile's product added; the output block untouched. -/
noncomputable def runFirst (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) :
    Σ' (L1 : List (View.Piece (Elt F) S1x128x128 .f32)), { LS0 : List (View.Piece (Elt F) S128x128 .f32) //
      ∀ (xi1 : Vec F S1x128x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨[], ?_, fun xi1 E K => ?run⟩
  case run =>
    simp only [cc0__g_kernel_eq_skeleton]; unfold cc0__g_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE tile (t = 1, 2): the tile's product added to the accumulator found at `xs0`; the output block untouched. -/
noncomputable def runMiddle (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) :
    Σ' (L1 : List (View.Piece (Elt F) S1x128x128 .f32)), { LS0 : List (View.Piece (Elt F) S128x128 .f32) //
      ∀ (xi1 : Vec F S1x128x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨[], ?_, fun xi1 E K => ?run⟩
  case run =>
    simp only [cc0__g_kernel_eq_skeleton]; unfold cc0__g_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST tile (t = 3): the tile's product added to the accumulator found at `xs0`, and the sum copied over the
    output block. -/
noncomputable def runLast (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) :
    Σ' (L1 : List (View.Piece (Elt F) S1x128x128 .f32)), { LS0 : List (View.Piece (Elt F) S128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__g_kernel i arg2 harg2 arg3 harg3 arg4 harg4) K } := by
  refine ⟨?_, ?_, fun E K => ?run⟩
  case run =>
    simp only [cc0__g_kernel_eq_skeleton]; unfold cc0__g_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Run

end
-- ==== Proof.KernelIdeal.GramRegion.lean ====
/-
  The first pallas_call, continued: what each of the body's three runs leaves in the accumulator and in the output
  block; the accumulation over the grid points n = 4 b + t (a batch's first tile starts it afresh, every later tile
  adds to what the tile before left, the last tile's sum is also the output block); the region's invariant, which
  carries the accumulator from one point to the next at exactly that contents; the pipeline's proof data; and the
  body obligation at every point.
-/
import proofs.«112945_j52261162058329_1_alg».proof.Proof.KernelIdeal.GramCases

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first tile's stores into the accumulator cover it. -/
theorem firstAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) (y : S128x128.Idx) :
    ∃ pc ∈ (runFirst c i arg2 harg2 arg3 harg3 arg4 harg4 hc0 hc1 x0).2.1, y ∈ pc.1.set :=
  View.cover_of_tiledL (runFirst c i arg2 harg2 arg3 harg3 arg4 harg4 hc0 hc1 x0).2.1 S128x128.size (by sl_kernel_rfl) y

/-- The accumulator after a batch's first tile: zeros, then the tile's product added. -/
def firstAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) : Vec F S128x128 .f32 :=
  accView.read (Elt F) (accView.writes (Elt F) accView.junk (runFirst c i arg2 harg2 arg3 harg3 arg4 harg4 hc0 hc1 x0).2.1)

theorem middleAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) (y : S128x128.Idx) :
    ∃ pc ∈ (runMiddle c i arg2 harg2 arg3 harg3 arg4 harg4 hc0 hc1 x0 xs0).2.1, y ∈ pc.1.set :=
  View.cover_of_tiledL (runMiddle c i arg2 harg2 arg3 harg3 arg4 harg4 hc0 hc1 x0 xs0).2.1 S128x128.size (by sl_kernel_rfl) y

/-- The accumulator after a middle tile: the tile's product added to what it held (`xs0`). -/
def middleAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) : Vec F S128x128 .f32 :=
  accView.read (Elt F) (accView.writes (Elt F) accView.junk (runMiddle c i arg2 harg2 arg3 harg3 arg4 harg4 hc0 hc1 x0 xs0).2.1)

theorem lastAcc_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) (y : S128x128.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S128x128.size (by sl_kernel_rfl) y

/-- The accumulator after the last tile. -/
def lastAcc (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) : Vec F S128x128 .f32 :=
  accView.read (Elt F) (accView.writes (Elt F) accView.junk (runLast c i arg2 harg2 arg3 harg3 arg4 harg4 hc0 hc1 x0 xs0).2.1)

theorem lastOut_cover (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) (y : S1x128x128.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x128x128.size (by sl_kernel_rfl) y

/-- The output block after the last tile: the accumulator's final sum, copied. -/
def lastOut (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) : Vec F S1x128x128 .f32 :=
  gView.read (Elt F) (gView.writes (Elt F) gView.junk (runLast c i arg2 harg2 arg3 harg3 arg4 harg4 hc0 hc1 x0 xs0).1)

/-- Off the last tile the output block is not stored into, not written back and not read at the next point: what is
    recorded for it there is never consulted. -/
def idleOut : Vec F S1x128x128 .f32 := gView.read (Elt F) (gView.writes (Elt F) gView.junk [])

/-! ## The accumulation over the grid points -/

/-- What the output block and the accumulator hold after the body at point `n` (a pair): the case the closed forms
    select, run on the point's tile of x, a later tile over what the point before left in the accumulator. -/
def gramAt (c : Dev nD) : (n : ℕ) → n < cfg0.N → Vec F S1x128x128 .f32 × Vec F S128x128 .f32
  | 0, hn => (idleOut, firstAcc c (grid0.coords ⟨0, hn⟩) (xMem ⟨0, hn⟩) (xMem_whole ⟨0, hn⟩) (gMem ⟨0, hn⟩) (gMem_whole ⟨0, hn⟩) accMem (Memref.isWhole_whole _) ((isFirst_iff ⟨0, hn⟩).mpr (Nat.zero_mod _)) (fun h => (fun h => by (try dsimp only at h); omega) ((isLast_iff ⟨0, hn⟩).mp h)) (blk0 V c 0 ⟨0, hn⟩))
  | n + 1, hn =>
    if h0 : (n + 1) % 4 = 0 then
      (idleOut, firstAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) ((isFirst_iff ⟨n + 1, hn⟩).mpr h0) (fun h => (fun h => by (try dsimp only at h); omega) ((isLast_iff ⟨n + 1, hn⟩).mp h)) (blk0 V c 0 ⟨n + 1, hn⟩))
    else
      if h1 : (n + 1) % 4 = 3 then
        (lastOut c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) ((isLast_iff ⟨n + 1, hn⟩).mpr h1) (blk0 V c 0 ⟨n + 1, hn⟩) (gramAt c n (Nat.lt_of_succ_lt hn)).2,
         lastAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) ((isLast_iff ⟨n + 1, hn⟩).mpr h1) (blk0 V c 0 ⟨n + 1, hn⟩) (gramAt c n (Nat.lt_of_succ_lt hn)).2)
      else
        (idleOut, middleAcc c (grid0.coords ⟨n + 1, hn⟩) (xMem ⟨n + 1, hn⟩) (xMem_whole ⟨n + 1, hn⟩) (gMem ⟨n + 1, hn⟩) (gMem_whole ⟨n + 1, hn⟩) accMem (Memref.isWhole_whole _) (fun h => h0 ((isFirst_iff ⟨n + 1, hn⟩).mp h)) (fun h => h1 ((isLast_iff ⟨n + 1, hn⟩).mp h)) (blk0 V c 0 ⟨n + 1, hn⟩) (gramAt c n (Nat.lt_of_succ_lt hn)).2)

/-- At a batch's first tile. -/
theorem gramAt_first (c : Dev nD) (t : Fin cfg0.N) (h0 : t.val % 4 = 0) (h1 : ¬t.val % 4 = 3) :
    gramAt V c t.val t.isLt = (idleOut, firstAcc c (grid0.coords t) (xMem t) (xMem_whole t) (gMem t) (gMem_whole t) accMem (Memref.isWhole_whole _) ((isFirst_iff t).mpr h0) (fun h => h1 ((isLast_iff t).mp h)) (blk0 V c 0 t)) := by
  obtain ⟨n, hn⟩ := t
  cases n with
  | zero => exact rfl
  | succ n => exact (dif_pos h0).trans rfl

/-- At a middle tile: over what the point before left. -/
theorem gramAt_middle (c : Dev nD) (t : Fin cfg0.N) (h0 : ¬t.val % 4 = 0) (h1 : ¬t.val % 4 = 3) :
    gramAt V c t.val t.isLt = (idleOut, middleAcc c (grid0.coords t) (xMem t) (xMem_whole t) (gMem t) (gMem_whole t) accMem (Memref.isWhole_whole _) (fun h => h0 ((isFirst_iff t).mp h)) (fun h => h1 ((isLast_iff t).mp h)) (blk0 V c 0 t) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last tile: over what the point before left. -/
theorem gramAt_last (c : Dev nD) (t : Fin cfg0.N) (h0 : ¬t.val % 4 = 0) (h1 : t.val % 4 = 3) :
    gramAt V c t.val t.isLt = (lastOut c (grid0.coords t) (xMem t) (xMem_whole t) (gMem t) (gMem_whole t) accMem (Memref.isWhole_whole _) (fun h => h0 ((isFirst_iff t).mp h)) ((isLast_iff t).mpr h1) (blk0 V c 0 t) (gramAt V c (t.val - 1) (Nat.lt_of_le_of_lt (Nat.sub_le _ _) t.isLt)).2,
      lastAcc c (grid0.coords t) (xMem t) (xMem_whole t) (gMem t) (gMem_whole t) accMem (Memref.isWhole_whole _) (fun h => h0 ((isFirst_iff t).mp h)) ((isLast_iff t).mpr h1) (blk0 V c 0 t) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before point `n`: at the very first point the accumulator holds anything; afterwards exactly what the point
    before left in it. Beside it, the generator register at some state. -/
def gramInv (c : Dev nD) : (n : ℕ) → n ≤ cfg0.N → sProp 𝕄
  | 0, _ => Pipeline.ΦA spec0 c
  | n + 1, hn => iprop(iprop(owns (c : Thread nD τ) accMem fullShare ((gramAt V c n hn).2) ∗ otherBufs (F := F) c) ∗ (∃ r, prngReg c r))

theorem gramInv_zero (c : Dev nD) (n : ℕ) (h : n ≤ cfg0.N) (hz : n = 0) : gramInv V c n h = Pipeline.ΦA spec0 c := by
  subst hz; rfl

theorem gramInv_succ (c : Dev nD) (n : ℕ) (hn : n < cfg0.N) :
    gramInv V c (n + 1) hn = iprop(iprop(owns (c : Thread nD τ) accMem fullShare ((gramAt V c n hn).2) ∗ otherBufs (F := F) c) ∗ (∃ r, prngReg c r)) := rfl

theorem gramInv_pos (c : Dev nD) (n : ℕ) (h : n ≤ cfg0.N) (hz : n ≠ 0) :
    gramInv V c n h = iprop(iprop(owns (c : Thread nD τ) accMem fullShare ((gramAt V c (n - 1) (by omega)).2) ∗ otherBufs (F := F) c) ∗ (∃ r, prngReg c r)) := by
  cases n with
  | zero => exact absurd rfl hz
  | succ n => rfl

/-! ## The proof data -/

/-- The pipeline's proof data on core `c`: the arrays as found; after the body the x-window's buffer still at its
    tile and the output window's at `gramAt`'s first component; the invariant `gramInv`; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (gramAt V c t.val t.isLt).1
  Φ t := gramInv V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = gramInv V c t.val (Nat.le_of_lt t.isLt) := by
  dsimp only [dat0]; simp only [Fin.coe_castSucc]

theorem dat0_after0 (c : Dev nD) (t : Fin cfg0.N) : (dat0 V c).after 0 t = blk0 V c 0 t := by dsimp only [dat0]
theorem dat0_after1 (c : Dev nD) (t : Fin cfg0.N) : (dat0 V c).after 1 t = (gramAt V c t.val t.isLt).1 := by dsimp only [dat0]

theorem dat0_before0 (c : Dev nD) (t : Fin cfg0.N) (d) : (dat0 V c).before 0 t d = blk0 V c 0 t :=
  found0_0 V (dat0 V c) (dat0_A V c 0) (dat0_after0 V c) t d

/-! ## The body obligation -/

def gramPre (c : Dev nD) (t : Fin cfg0.N) : sProp 𝕄 :=
  iprop((dat0 V c).Φ t.castSucc ∗ (dat0 V c).owesAt () t.castSucc
    ∗ (∃ d, owns (c : Thread nD τ) (xMem t) fullShare ((dat0 V c).before 0 t d))
    ∗ (∃ d, owns (c : Thread nD τ) (gMem t) fullShare ((dat0 V c).before 1 t d)))

def gramPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The x-window's buffer holds its tile; the closed forms say which of the three cases the
    point is in; the invariant hands the body the accumulator — at anything at the very first point, else at what the
    point before left — and takes it back at this point's contents; the output block is handed back untouched off
    the last tile and with the final sum on it. -/
theorem gramBody_sound (c : Dev nD) (t : Fin cfg0.N) :
    gramPre V c t ⊢ wp frame (wpE (defs₀ (F := F)) Variants.none c none) Set.univ (bodyAt0 t) (fun _ => gramPost V c t) := by
  unfold gramPre gramPost bodyAt0
  simp only [dat0_before0]
  rw [show (dat0 V c).owesAt () t.succ = (dat0 V c).owesAt () t.castSucc from rfl]
  rw [show (dat0 V c).Φ t.succ = gramInv V c (t.val + 1) t.isLt from rfl, gramInv_succ]
  have hN : t.val < 16 := lt_of_lt_of_eq t.isLt (show cfg0.N = 16 from N_0)
  rw [show (dat0 V c).leavesExact 0 t = owns (c : Thread nD τ) (xMem t) fullShare ((dat0 V c).after 0 t) from by
    unfold Dat.leavesExact; rw [xLive t], dat0_after0]
  by_cases h0 : t.val % 4 = 0
  · have h1 : ¬t.val % 4 = 3 := by omega
    have hl : ¬isLast (grid0.coords t) := fun h => h1 ((isLast_iff t).mp h)
    rw [Dat.leavesExact_idle (dat0 V c) 1 t (gIdle t hl) (gNoFlush t hl)]
    rw [gramAt_first V c t h0 h1]
    unfold firstAcc; (try dsimp only)
    by_cases hz : t.val = 0
    · rw [dat0_inv_castSucc V c t, gramInv_zero V c _ _ hz, restInv_eq]
      iintro ⟨⟨⟨HS0, Hob⟩, Hg⟩, Ho, ⟨%d0, H0⟩, ⟨%d1, H1⟩⟩
      iapply ((runFirst c (grid0.coords t) _ _ _ _ _ _ ((isFirst_iff t).mpr h0) hl (blk0 V c 0 t)).2.2 _ Set.univ _)
      isplitl [H0]; · iexact H0
      isplitl [H1]; · iexact H1
      isplitl [HS0]; · iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (firstAcc_cover c _ _ _ _ _ _ _ _ _ _)
      isplitl [Ho]; · iexact Ho
      isplitl [H0]; · iexact H0
      iexists _; iexact H1
    · rw [dat0_inv_castSucc V c t, gramInv_pos V c _ _ hz]
      iintro ⟨⟨⟨HS0, Hob⟩, Hg⟩, Ho, ⟨%d0, H0⟩, ⟨%d1, H1⟩⟩
      iapply ((runFirst c (grid0.coords t) _ _ _ _ _ _ ((isFirst_iff t).mpr h0) hl (blk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (firstAcc_cover c _ _ _ _ _ _ _ _ _ _)
      isplitl [Ho]; · iexact Ho
      isplitl [H0]; · iexact H0
      iexists _; iexact H1
  · have hf : ¬isFirst (grid0.coords t) := fun h => h0 ((isFirst_iff t).mp h)
    have hz : t.val ≠ 0 := fun e => h0 (by rw [e])
    by_cases h1 : t.val % 4 = 3
    · have hl : isLast (grid0.coords t) := (isLast_iff t).mpr h1
      rw [show (dat0 V c).leavesExact 1 t = owns (c : Thread nD τ) (gMem t) fullShare ((dat0 V c).after 1 t) from by
        unfold Dat.leavesExact; rw [gLive t hl], dat0_after1]
      rw [gramAt_last V c t h0 h1]
      unfold lastOut lastAcc; (try dsimp only)
      rw [dat0_inv_castSucc V c t, gramInv_pos V c _ _ hz]
      iintro ⟨⟨⟨HS0, Hob⟩, Hg⟩, Ho, ⟨%d0, H0⟩, ⟨%d1, H1⟩⟩
      iapply ((runLast c (grid0.coords t) _ _ _ _ _ _ hf hl (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (lastAcc_cover c _ _ _ _ _ _ _ _ _ _ _)
      isplitl [Ho]; · iexact Ho
      isplitl [H0]; · iexact H0
      unfold owns; iexists _; isplitr
      swap; · iexact H1
      ipureintro; exact View.read_writes_of_cover _ _ _ _ _ (lastOut_cover c _ _ _ _ _ _ _ _ _ _ _)
    · have hl : ¬isLast (grid0.coords t) := fun h => h1 ((isLast_iff t).mp h)
      rw [Dat.leavesExact_idle (dat0 V c) 1 t (gIdle t hl) (gNoFlush t hl)]
      rw [gramAt_middle V c t h0 h1]
      unfold middleAcc; (try dsimp only)
      rw [dat0_inv_castSucc V c t, gramInv_pos V c _ _ hz]
      iintro ⟨⟨⟨HS0, Hob⟩, Hg⟩, Ho, ⟨%d0, H0⟩, ⟨%d1, H1⟩⟩
      iapply ((runMiddle c (grid0.coords t) _ _ _ _ _ _ hf hl (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hob Hg]
      · isplitl [HS0 Hob]
        swap; · iexact Hg
        isplitl [HS0]
        swap; · iexact Hob
        · unfold owns; iexists _; isplitr
          swap; · iexact HS0
          ipureintro; exact View.read_writes_of_cover _ _ _ _ _ (middleAcc_cover c _ _ _ _ _ _ _ _ _ _ _)
      isplitl [Ho]; · iexact Ho
      isplitl [H0]; · iexact H0
      iexists _; iexact H1

/-- The library's body obligation, at every point. -/
theorem gramBody_obligation (c : Dev nD) : BodyObligation (dat0 (F := F) V c) (defs₀ (F := F)) Variants.none () Set.univ := fun t => by
  rw [bigSep_W0, bigSep_W0]
  exact gramBody_sound V c t

/-- What the region is handed is the invariant before the first point. -/
theorem gramInv_in (c : Dev nD) : Pipeline.ΦA spec0 c ⊢ (dat0 V c).Φ 0 := by
  rw [show (dat0 V c).Φ 0 = gramInv V c 0 (Nat.zero_le _) from rfl, gramInv_zero V c 0 _ rfl]
  try exact Idealize.SL.BI.Entails.refl _

/-- After the last point the invariant gives that back: the accumulator's contents are forgotten. -/
theorem gramInv_out (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = gramInv V c (Fin.last cfg0.N).val (Nat.le_of_lt_succ (Fin.last cfg0.N).isLt) from rfl,
    gramInv_pos V c _ _ ht, restInv_eq]
  iintro ⟨⟨HS0, Hob⟩, Hg⟩
  isplitl [HS0 Hob]
  · isplitl [HS0]
    · iexists _; iexact HS0
    iexact Hob
  iexact Hg

end Cert.KernelIdeal.Run

end
-- ==== Proof.KernelIdeal.OutRegion.lean ====
/-
  The second pallas_call: out[b, 1024 t .. 1024 t + 1023, :] = x-block · G[b].  At every grid point (b, t) the body
  loads the point's 1024 x 128 block of x and the 128 x 128 block of the Gram array, multiplies them and stores the
  product over the whole output block; it keeps nothing between points and branches on nothing.  Stated at a
  parameter `V`: what the unscoped buffers hold when the region is entered.
-/
import proofs.«112945_j52261162058329_1_alg».proof.Proof.Gen.KernelIdeal.Launch
import proofs.«112945_j52261162058329_1_alg».proof.Proof.Gen.KernelIdeal.Skeleton
import proofs.«112945_j52261162058329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x-window's staging buffer holds the point's block of x at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Gram window's staging buffer holds batch b's block at every point: fetched at t = 0, and at t > 0 the block
    index has not moved, so the buffer still holds it. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output block -/

/-- The whole 1 x 1024 x 128 block, as a rectangle. -/
abbrev whole1 : Rect S1x1024x128 := Rect.unit (s := S1x1024x128) ![0, 0, 0] S1x1024x128.size inb_S1x1024x128_S1x1024x128_0_0_0
/-- The whole 1 x 128 x 128 block. -/
abbrev wholeG : Rect S1x128x128 := Rect.unit (s := S1x128x128) ![0, 0, 0] S1x128x128.size inb_S1x128x128_S1x128x128_0_0_0

/-- The output block after the body: its one store, the product of the two loaded blocks, read back. -/
def prodBlk (x0 : Vec F S1x1024x128 .f32) (g0 : Vec F S1x128x128 .f32) : Vec F S1x1024x128 .f32 :=
  View.canon [⟨whole1, k1_pay1 (View.ld x0 whole1) (View.ld g0 wholeG)⟩]

/-- The one store covers the block. -/
theorem prodBlk_cover (p0 : Vec F S1x1024x128 .f32) (y : S1x1024x128.Idx) :
    ∃ pc ∈ ([⟨whole1, p0⟩] : List (View.Piece (Elt F) S1x1024x128 .f32)), y ∈ pc.1.set :=
  View.cover_of_tiled [⟨whole1, p0⟩] S1x1024x128.size (by rfl) y

/-! ## The body's triple -/

set_option maxHeartbeats 1000000 in
/-- On whole staging buffers — the two inputs' at known contents, the output's at anything — the body runs to a
    continuation that holds the inputs' as they were and the output's at `prodBlk` of them. -/
theorem outBody_triple (c : Dev nD) (E : Set ℕ) (i : grid1.Coords)
    (arg2 : Memref sig .tc .vmem S1x1024x128 .f32) (harg2 : arg2.IsWhole) (arg3 : Memref sig .tc .vmem S1x128x128 .f32) (harg3 : arg3.IsWhole)
    (arg4 : Memref sig .tc .vmem S1x1024x128 .f32) (harg4 : arg4.IsWhole)
    (x0 : Vec F S1x1024x128 .f32) (g0 : Vec F S1x128x128 .f32) (K : PUnit → sProp 𝕄) :
    iprop(owns (c : Thread nD τ) arg2 fullShare x0 ∗ owns (c : Thread nD τ) arg3 fullShare g0 ∗ (∃ d, owns (c : Thread nD τ) arg4 fullShare d)
        ∗ (iprop(owns (c : Thread nD τ) arg2 fullShare x0 ∗ owns (c : Thread nD τ) arg3 fullShare g0 ∗ owns (c : Thread nD τ) arg4 fullShare (prodBlk x0 g0)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlk_cover _)

/-! ## The proof data -/

/-- The pipeline's proof data on core `c`: the arrays as found; after the body each input's buffer still at its
    block and the output's at the product of the two; the invariant is only the buffers no window stages and the
    generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prodBlk (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = prodBlk (blk1 V c 0 t) (blk1 V c 1 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d

/-! ## The body obligation -/

/-- What the body is called with at point `t`, -/
def outPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def outPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem outBody_sound (c : Dev nD) (t : Fin cfg1.N) :
    outPre V c t ⊢ wp frame (wpE (defs₀ (F := F)) Variants.none c none) Set.univ (bodyAt1 t) (fun _ => outPost V c t) := by
  unfold outPre outPost bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (outBody_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem outBody_obligation (c : Dev nD) : BodyObligation (dat1 (F := F) V c) (defs₀ (F := F)) Variants.none () Set.univ := fun t => by
  rw [bigSep_W1, bigSep_W1]
  exact outBody_sound V c t

end Cert.KernelIdeal.Run

end
-- ==== Proof.KernelIdeal.Launch.lean ====
/-
  @main is the two pallas_calls in a row, with no host operation around them. This module follows the unscoped
  buffers through it: at launch they hold the memory `m`; the Gram region changes only its output array, which ends
  at what its write-backs leave; the product region then changes only the result array. Each region is a segment
  entered from one of these states and left at the next, and the run of @main ends with the result array at what
  the product region's write-backs leave and the argument array as launched.
-/
import proofs.«112945_j52261162058329_1_alg».proof.Proof.KernelIdeal.GramRegion
import proofs.«112945_j52261162058329_1_alg».proof.Proof.KernelIdeal.OutRegion

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the Gram region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem left0 (c : Dev nD) (w : Fin cfg0.W) : (dat0 (V0 m) c).arrAt w cfg0.N = V1 m c (Pipeline.arrRef spec0 w) :=
  (W1_arr m c w).symm
theorem kept0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem left1 (c : Dev nD) (w : Fin cfg1.W) : (dat1 (V1 m) c).arrAt w cfg1.N = V2 m c (Pipeline.arrRef spec1 w) :=
  (W2_arr m c w).symm
theorem kept1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the regions find and leave, by name -/

/-- The product region finds the argument array as launched: the Gram region only reads it. -/
theorem V1_arg (c : Dev nD) : V1 m c main_arg0 = m ((c : Thread nD τ).loc main_arg0) :=
  (W1_arr m c 0).trans (((dat0 (V0 m) c).arrAt_in 0 rfl _).trans (dat0_A (V0 m) c 0))
/-- It finds the Gram array at what the Gram region's write-backs left. -/
theorem V1_gram (c : Dev nD) : V1 m c main_v0 = (dat0 (V0 m) c).arrAt 1 cfg0.N := W1_arr m c 1
/-- The argument array ends as launched: the product region only reads it too. -/
theorem W2_arg (c : Dev nD) : W2 m c (Proc.devRef .tc main_arg0) = m ((c : Thread nD τ).loc main_arg0) :=
  ((W2_arr m c 0).trans (((dat1 (V1 m) c).arrAt_in 0 rfl _).trans (dat1_A (V1 m) c 0))).trans (V1_arg m c)
/-- The result array ends at what the product region's write-backs leave. -/
theorem W2_out (c : Dev nD) : W2 m c (Proc.devRef .tc main_v1) = (dat1 (V1 m) c).arrAt 2 cfg1.N := W2_arr m c 2

/-! ## The proof data family and the thread states -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The Gram region as a segment of @main: entered with every unscoped buffer at `W0`, left with them at
    `W1`. Its windows' arrays are split out of the unscoped buffers at entry and put back at what the write-backs
    leave at exit; the generator register goes into the region's invariant and comes back; nothing is owed and the
    kernel has no semaphore of its own. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (gramBody_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest spec0 c ∗ ∃ r, prngReg c r) : sProp 𝕄) ⊢ (pdats m 0 c).Φ 0 := by
      have h := gramInv_in (V0 m) c; unfold Pipeline.ΦA at h; exact h
    iintro ⟨Hp, -, Hr⟩
    iapply hΦ
    isplitl [Hr]; · iexact Hr
    iexact Hp
  hout c := by
    rw [Pipeline.ownSems0_none]
    have hΦ : (pdats m 0 c).Φ (Fin.last _) ⊢ (iprop(Pipeline.scopedRest spec0 c ∗ ∃ r, prngReg c r) : sProp 𝕄) := by
      have h := gramInv_out (V0 m) c; unfold Pipeline.ΦA at h; exact h
    have hY : (iprop(Pipeline.scopedRest spec0 c ∗ ∃ r, prngReg c r) : sProp 𝕄)
        ⊢ iprop((∃ r, prngReg c r) ∗ emp ∗ Pipeline.scopedRest spec0 c) := by
      iintro ⟨Hr, Hp⟩
      isplitl [Hp]; · iexact Hp
      isplitr; · iempintro
      iexact Hr
    iintro H
    iapply hY
    iapply hΦ
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region as a segment of @main: entered with every unscoped buffer at `W1`, left with them at
    `W2`. Its windows' arrays are split out of the unscoped buffers at entry and put back at what the write-backs
    leave at exit; the generator register goes into the region's invariant and comes back; nothing is owed and the
    kernel has no semaphore of its own. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (outBody_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (seg0 m), .region (seg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    with the result array at what the product region's write-backs leave and the argument array as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_out m c),
       (h c _ (mem_uc main_arg0 (by decide))).trans (W2_arg m c)⟩)

/-- THE FRAME: the run, with what it says of the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Run

end
-- ==== Proof.Spec.lean ====
/-
  The mathematics both programs compute, index by index, on the extended reals.

  For one batch b the input is a 4096 x 128 matrix X = x[b].  The reference forms the 4096 x 4096 matrix of
  scores S = X Xᵀ and returns S X.  The kernel forms the 128 x 128 Gram matrix G = Xᵀ X — accumulated over four
  tiles of 1024 rows each — and returns X G.  Matrix multiplication is associative, (X Xᵀ) X = X (Xᵀ X); entry by
  entry that is distributing a factor over a sum and exchanging two finite sums, which on the extended reals
  needs every entry to be a real number.
-/
import Idealize.ShloMosaic.PureOps.Ideal
import Idealize.ShloMosaic.Lib.ValueIdx
import Mathlib.Algebra.BigOperators.Fin
import Mathlib.Data.Fintype.BigOperators
import Mathlib.Data.EReal.Basic

noncomputable section

namespace Cert.Spec

open Idealize.ShloMosaic Idealize.ShloMosaic.ValueIdx

/-- The input's shape, [4, 4096, 128], and the Gram matrices', [4, 128, 128]. -/
abbrev SX : Shape := ⟨3, ![4, 4096, 128]⟩
abbrev SG : Shape := ⟨3, ![4, 128, 128]⟩

/-- Row `1024 * k + r` of a batch: row `r` of its `k`-th tile of 1024 rows. -/
def tileRow (k : Fin 4) (r : Fin 1024) : Fin 4096 := ⟨1024 * k.val + r.val, by omega⟩

/-- One tile's contribution to the Gram matrix: Σ_r x[b, 1024 k + r, e] · x[b, 1024 k + r, d]. -/
def tileAt (x : SX.Idx → EReal) (b : Fin 4) (k : Fin 4) (e d : Fin 128) : EReal :=
  ∑ r : Fin 1024, x (ix3 b (tileRow k r) e) * x (ix3 b (tileRow k r) d)

/-- The Gram matrix of batch `b`: G[b, e, d] = Σ_s x[b, s, e] · x[b, s, d]. -/
def gramAt (x : SX.Idx → EReal) (b : Fin 4) (e d : Fin 128) : EReal :=
  ∑ s : Fin 4096, x (ix3 b s e) * x (ix3 b s d)

/-- The Gram matrix as an array. -/
def gram (x : SX.Idx → EReal) : SG.Idx → EReal := fun j => gramAt x (j 0) (j 1) (j 2)

/-- What the kernel returns from the input and ANY [4, 128, 128] array `g`: Σ_e x[b, t, e] · g[b, e, d]. -/
def kerAt (x : SX.Idx → EReal) (g : SG.Idx → EReal) (b : Fin 4) (t : Fin 4096) (d : Fin 128) : EReal :=
  ∑ e : Fin 128, x (ix3 b t e) * g (ix3 b e d)

/-- What the reference returns: Σ_s (Σ_e x[b, t, e] · x[b, s, e]) · x[b, s, d]. -/
def refAt (x : SX.Idx → EReal) (b : Fin 4) (t : Fin 4096) (d : Fin 128) : EReal :=
  ∑ s : Fin 4096, (∑ e : Fin 128, x (ix3 b t e) * x (ix3 b s e)) * x (ix3 b s d)

/-- The reference's result as an array. -/
def refOut (x : SX.Idx → EReal) : SX.Idx → EReal := fun i => refAt x (i 0) (i 1) (i 2)

/-- The rows of a batch as pairs (tile, row within the tile): s = 1024 * k + r with k = s / 1024, r = s % 1024. -/
def tileEquiv : Fin 4 × Fin 1024 ≃ Fin 4096 where
  toFun p := tileRow p.1 p.2
  invFun s := (⟨s.val / 1024, by omega⟩, ⟨s.val % 1024, by omega⟩)
  left_inv := by
    rintro ⟨k, r⟩
    apply Prod.ext <;> apply Fin.ext <;> simp only [tileRow] <;> omega
  right_inv := by
    intro s
    apply Fin.ext
    simp only [tileRow]
    omega

/-- Regrouping a sum over 4096 rows as four sums over 1024 rows: reindex along `tileEquiv`, split the sum over
    the product into an iterated sum, and write out the outer sum's four terms. -/
theorem sum_eq_tiles (f : Fin 4096 → EReal) :
    ∑ s : Fin 4096, f s
      = (∑ r : Fin 1024, f (tileRow 0 r)) + (∑ r : Fin 1024, f (tileRow 1 r))
        + (∑ r : Fin 1024, f (tileRow 2 r)) + (∑ r : Fin 1024, f (tileRow 3 r)) := by
  rw [← Equiv.sum_comp tileEquiv f, Fintype.sum_prod_type, Fin.sum_univ_four]
  rfl

/-- The Gram matrix is the sum of its four tiles' contributions: a sum over 4096 rows regrouped as 4 × 1024
    (addition on the extended reals is commutative and associative; no finiteness is needed). -/
theorem gramAt_eq_tiles (x : SX.Idx → EReal) (b : Fin 4) (e d : Fin 128) :
    gramAt x b e d = tileAt x b 0 e d + tileAt x b 1 e d + tileAt x b 2 e d + tileAt x b 3 e d := by
  unfold gramAt tileAt
  exact sum_eq_tiles (fun s => x (ix3 b s e) * x (ix3 b s d))

/-- The coercion of the reals into the extended reals commutes with finite sums (it is additive and sends 0 to 0). -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Associativity over the reals: Σ_e a_e · (Σ_s u_{s,e} · v_s) = Σ_s (Σ_e a_e · u_{s,e}) · v_s.
    Distribute a_e over the inner sum, exchange the two sums, and pull v_s out of the sum over e. -/
theorem real_assoc (a : Fin 128 → ℝ) (u : Fin 4096 → Fin 128 → ℝ) (v : Fin 4096 → ℝ) :
    ∑ e : Fin 128, a e * ∑ s : Fin 4096, u s e * v s
      = ∑ s : Fin 4096, (∑ e : Fin 128, a e * u s e) * v s := by
  calc ∑ e : Fin 128, a e * ∑ s : Fin 4096, u s e * v s
      = ∑ e : Fin 128, ∑ s : Fin 4096, a e * u s e * v s :=
        Finset.sum_congr rfl fun e _ => by
          rw [Finset.mul_sum]
          exact Finset.sum_congr rfl fun s _ => (mul_assoc _ _ _).symm
    _ = ∑ s : Fin 4096, ∑ e : Fin 128, a e * u s e * v s := Finset.sum_comm
    _ = ∑ s : Fin 4096, (∑ e : Fin 128, a e * u s e) * v s :=
        Finset.sum_congr rfl fun s _ => (Finset.sum_mul _ _ _).symm

/-- ASSOCIATIVITY, entry by entry: for an input whose every entry is a real number,
    Σ_e x[t,e] · (Σ_s x[s,e] · x[s,d]) = Σ_s (Σ_e x[t,e] · x[s,e]) · x[s,d]. -/
theorem kerAt_gram_eq_refAt (x : SX.Idx → EReal) (hfin : ∀ i, ∃ r : ℝ, x i = (r : EReal))
    (b : Fin 4) (t : Fin 4096) (d : Fin 128) :
    kerAt x (gram x) b t d = refAt x b t d := by
  choose xr hxr using hfin
  have hL : kerAt x (gram x) b t d
      = ((∑ e : Fin 128, xr (ix3 b t e) * ∑ s : Fin 4096, xr (ix3 b s e) * xr (ix3 b s d) : ℝ) : EReal) := by
    rw [coe_finset_sum]
    unfold kerAt
    refine Finset.sum_congr rfl fun e _ => ?_
    have hin : ∑ s : Fin 4096, x (ix3 b s e) * x (ix3 b s d)
        = ∑ s : Fin 4096, ((xr (ix3 b s e) * xr (ix3 b s d) : ℝ) : EReal) :=
      Finset.sum_congr rfl fun s _ => by rw [hxr (ix3 b s e), hxr (ix3 b s d), EReal.coe_mul]
    show x (ix3 b t e) * gramAt x b e d = _
    unfold gramAt
    rw [EReal.coe_mul, coe_finset_sum, hxr (ix3 b t e), hin]
  have hR : refAt x b t d
      = ((∑ s : Fin 4096, (∑ e : Fin 128, xr (ix3 b t e) * xr (ix3 b s e)) * xr (ix3 b s d) : ℝ) : EReal) := by
    rw [coe_finset_sum]
    unfold refAt
    refine Finset.sum_congr rfl fun s _ => ?_
    have hin : ∑ e : Fin 128, x (ix3 b t e) * x (ix3 b s e)
        = ∑ e : Fin 128, ((xr (ix3 b t e) * xr (ix3 b s e) : ℝ) : EReal) :=
      Finset.sum_congr rfl fun e _ => by rw [hxr (ix3 b t e), hxr (ix3 b s e), EReal.coe_mul]
    rw [EReal.coe_mul, coe_finset_sum, hxr (ix3 b s d), hin]
  rw [hL, hR, real_assoc (fun e => xr (ix3 b t e)) (fun s e => xr (ix3 b s e)) (fun s => xr (ix3 b s d))]

end Cert.Spec

end
-- ==== Proof.KernelIdeal.OutValue.lean ====
/-
  What the product region leaves in the result array, at the ideal instance.  At grid point (b, t) the body stores the
  product of the point's 1024 x 128 block of x with batch b's 128 x 128 block of the Gram array; the blocks tile the
  result array, so entry (b, s, d) of the result is Σ_e x[b, s, e] · g[b, e, d] of the arrays the region found.
-/
import proofs.«112945_j52261162058329_1_alg».proof.Proof.KernelIdeal.OutRegion
import proofs.«112945_j52261162058329_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Run

variable (V : (c : Dev nD) → (b : Ref sig .tc) → Buf (Elt Ideal) ((c : Thread nD τ).loc b))

/-! ## The product of a 1024 x 128 matrix with a 128 x 128 matrix, at an entry -/

/-- The left operand is read at the entry's row: axis 0 of the left operand is not contracted. -/
theorem lhs_prod_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- and at the summation index on its contracted axis 1. -/
theorem lhs_prod_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand is read at the summation index on its contracted axis 0, -/
theorem rhs_prod_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- and at the entry's column. -/
theorem rhs_prod_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into a zero accumulator at entry (r, d): the sum over e of L[r, e] · R[e, d]. -/
theorem matmul_prod_apply {φ₁ φ₂ : FTy} (L : FVec Ideal S1024x128 φ₁) (R : FVec Ideal S128x128 φ₂) (r : Fin 1024) (d : Fin 128) :
    matmul dot_S1024x128_S128x128_S1024x128_1_0_0_1_n_n none L R (constant (F := Ideal) S1024x128 .f32 0x00000000#32) (ix2 r d)
      = ∑ e : Fin 128, L (ix2 r e) * R (ix2 e d) := by
  show FloatOps.matmul dot_S1024x128_S128x128_S1024x128_1_0_0_1_n_n none L R (constant S1024x128 .f32 0x00000000#32) (ix2 r d) = _
  rw [Ideal.matmul_constant_zero_apply, ← Equiv.sum_comp (contrEquiv1 dot_S1024x128_S128x128_S1024x128_1_0_0_1_n_n 128 rfl rfl).symm]
  refine Finset.sum_congr rfl fun e _ => ?_
  have hk := contrEquiv1_symm_val dot_S1024x128_S128x128_S1024x128_1_0_0_1_n_n 128 rfl rfl e
  have el : dot_S1024x128_S128x128_S1024x128_1_0_0_1_n_n.lhsIdx (ix2 r d) ((contrEquiv1 dot_S1024x128_S128x128_S1024x128_1_0_0_1_n_n 128 rfl rfl).symm e) = ix2 r e := funext fun a => Fin.ext (by
    match a with
    | ⟨0, _⟩ => exact lhs_prod_0 _ _
    | ⟨1, _⟩ => exact (lhs_prod_1 _ _).trans hk)
  have er : dot_S1024x128_S128x128_S1024x128_1_0_0_1_n_n.rhsIdx (ix2 r d) ((contrEquiv1 dot_S1024x128_S128x128_S1024x128_1_0_0_1_n_n 128 rfl rfl).symm e) = ix2 e d := funext fun a => Fin.ext (by
    match a with
    | ⟨0, _⟩ => exact (rhs_prod_0 _ _).trans hk
    | ⟨1, _⟩ => exact rhs_prod_1 _ _)
  rw [el, er]

/-- The body's arithmetic at entry (0, r, d) of its block: the sum over e of x[0, r, e] · g[0, e, d]. -/
theorem pay_apply (x : Vec Ideal S1x1024x128 .f32) (g : Vec Ideal S1x128x128 .f32) (r : Fin 1024) (d : Fin 128) :
    k1_pay1 x g (ix3 (0 : Fin 1) r d) = ∑ e : Fin 128, x (ix3 (0 : Fin 1) r e) * g (ix3 (0 : Fin 1) e d) := by
  unfold k1_pay1
  rw [shapeCast_ab_1ab_apply, matmul_prod_apply]
  refine Finset.sum_congr rfl fun e _ => ?_
  rw [truncf_apply, truncf_apply, shapeCast_1ab_ab_apply, shapeCast_1ab_ab_apply]

/-- The body's arithmetic against the specification: when the x-block's row r is row s of batch b of X, and the Gram
    block is batch b of G, entry j = (0, r, d) of the product is Σ_e X[b, s, e] · G[b, e, d]. -/
theorem pay_eq_kerAt (X : Cert.Spec.SX.Idx → EReal) (G : Cert.Spec.SG.Idx → EReal)
    (x0 : Vec Ideal S1x1024x128 .f32) (g0 : Vec Ideal S1x128x128 .f32)
    (b : Fin 4) (s : Fin 4096) (r : Fin 1024) (d : Fin 128) (j : S1x1024x128.Idx)
    (hj1 : (j 1).val = r.val) (hj2 : (j 2).val = d.val)
    (hx : ∀ e : Fin 128, x0 (ix3 (0 : Fin 1) r e) = X (ix3 b s e))
    (hg : ∀ e : Fin 128, g0 (ix3 (0 : Fin 1) e d) = G (ix3 b e d)) :
    k1_pay1 x0 g0 j = Cert.Spec.kerAt X G b s d := by
  have hj : j = ix3 (0 : Fin 1) r d := funext fun a => Fin.ext (by
    match a with
    | ⟨0, _⟩ => exact Nat.lt_one_iff.mp (j 0).isLt
    | ⟨1, _⟩ => exact hj1
    | ⟨2, _⟩ => exact hj2)
  rw [hj, pay_apply]
  unfold Cert.Spec.kerAt
  exact Finset.sum_congr rfl fun e _ => by rw [hx, hg]

/-! ## From the blocks to the array -/

/-- A whole block's rectangle starts at zero on every axis. -/
theorem zero3 : (![0, 0, 0] : Fin 3 → Nat) = fun _ => 0 := funext fun a => by fin_cases a <;> rfl

/-- The block indices over the grid: at point n = 4 b + k the x-window and the result window are at block (b, k, 0),
    the Gram window at block (b, 0, 0). -/
theorem index_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- What point n = 4 b + k writes back is its block of the array (b, s, d) ↦ Σ_e x[b, s, e] · g[b, e, d]. -/
theorem flushed_eq (c : Dev nD) (t : Fin cfg1.N) :
    (dat1 (F := Ideal) V c).flushed 2 t
      = ((cfg1.win 2).blk t).view.read (Elt Ideal) (fun i => Cert.Spec.kerAt (V c main_arg0) (V c main_v0) (i 0) (i 1) (i 2)) := by
  show (cfg1.win 2).cut (grid1.coords t) ((dat1 V c).after 2 t) = _
  rw [dat1_after2]
  unfold prodBlk
  rw [View.canon_unit_zero zero3]
  simp only [View.ld_unit_zero (S := S1x1024x128) zero3, View.ld_unit_zero (S := S1x128x128) zero3]
  obtain ⟨x0, x1, x2, g0, g1, g2, o0, o1, o2⟩ := index_facts t
  funext j
  show k1_pay1 (blk1 V c 0 t) (blk1 V c 1 t) j
    = Cert.Spec.kerAt (V c main_arg0) (V c main_v0) ((((cfg1.win 2).blk t).view.emb j) 0) ((((cfg1.win 2).blk t).view.emb j) 1) ((((cfg1.win 2).blk t).view.emb j) 2)
  have hj0 : (j 0).val < 1 := (j 0).isLt
  have hj1 : (j 1).val < 1024 := (j 1).isLt
  have hj2 : (j 2).val < 128 := (j 2).isLt
  refine pay_eq_kerAt _ _ _ _ _ _ ⟨(j 1).val, hj1⟩ _ j rfl ?_ (fun e => ?_) (fun e => ?_)
  · show (j 2).val = win1_2.index t (2 : Fin 3) * 128 + 1 * (j 2).val
    omega
  · show V c main_arg0 (((cfg1.win 0).blk t).view.emb (ix3 (0 : Fin 1) (⟨(j 1).val, hj1⟩ : Fin 1024) e)) = _
    refine congrArg (V c main_arg0) (funext fun a => Fin.ext ?_)
    match a with
    | ⟨0, _⟩ => show win1_0.index t (0 : Fin 3) * 1 + 1 * 0 = win1_2.index t (0 : Fin 3) * 1 + 1 * (j 0).val; omega
    | ⟨1, _⟩ => show win1_0.index t (1 : Fin 3) * 1024 + 1 * (j 1).val = win1_2.index t (1 : Fin 3) * 1024 + 1 * (j 1).val; omega
    | ⟨2, _⟩ => show win1_0.index t (2 : Fin 3) * 128 + 1 * e.val = e.val; omega
  · show V c main_v0 (((cfg1.win 1).blk t).view.emb (ix3 (0 : Fin 1) e ((((cfg1.win 2).blk t).view.emb j) 2))) = _
    refine congrArg (V c main_v0) (funext fun a => Fin.ext ?_)
    match a with
    | ⟨0, _⟩ => show win1_1.index t (0 : Fin 3) * 1 + 1 * 0 = win1_2.index t (0 : Fin 3) * 1 + 1 * (j 0).val; omega
    | ⟨1, _⟩ => show win1_1.index t (1 : Fin 3) * 128 + 1 * e.val = e.val; omega
    | ⟨2, _⟩ => show win1_1.index t (2 : Fin 3) * 128 + 1 * (win1_2.index t (2 : Fin 3) * 128 + 1 * (j 2).val) = win1_2.index t (2 : Fin 3) * 128 + 1 * (j 2).val; omega

/-- An entry of the result array is in point n's block iff each coordinate is in the block's range on its axis. -/
theorem mem_blk (t : Fin cfg1.N) (i : S4x4096x128.Idx) :
    i ∈ ((cfg1.win 2).blk t).view.set
      ↔ ∀ a : Fin 3, win1_2.index t a * S1x1024x128.size a ≤ (i a).val ∧ (i a).val < win1_2.index t a * S1x1024x128.size a + S1x1024x128.size a := by
  show i ∈ ((View.whole main_v1).slice (win1_2.rect t)).set ↔ _
  rw [View.set_slice_whole, Rect.mem_set_unit]
  exact Iff.rfl

/-- The blocks tile the result array: entry (b, s, d) is in the block of point 4 b + s / 1024. -/
theorem cover (i : S4x4096x128.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 128 := (i 2).isLt
  have hn : 4 * (i 0).val + (i 1).val / 1024 < 16 := by omega
  obtain ⟨t, ht⟩ : ∃ t : Fin cfg1.N, t.val = 4 * (i 0).val + (i 1).val / 1024 := ⟨⟨_, hn⟩, rfl⟩
  obtain ⟨-, -, -, -, -, -, o0, o1, o2⟩ := index_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 128 ≤ (i 2).val ∧ (i 2).val < win1_2.index t (2 : Fin 3) * 128 + 128; omega

/-- The result array after the product region: at (b, s, d), the sum over e of x[b, s, e] · g[b, e, d], where x is the
    argument array and g the Gram array as the region found them. -/
theorem out_final (c : Dev nD) :
    (dat1 (F := Ideal) V c).arrAt 2 cfg1.N
      = fun i => Cert.Spec.kerAt (V c main_arg0) (V c main_v0) (i 0) (i 1) (i 2) :=
  (dat1 (F := Ideal) V c).arrAt_eq_of_cover 2 _ (fun t _ => flushed_eq V c t) cover

end Cert.KernelIdeal.Val

end
-- ==== Proof.KernelIdeal.GramPieces.lean ====
/-
  What the Gram region's three runs leave, as terms of the body's arithmetic.  The pieces a run stores are found by
  running the body; read back, they are: after a batch's first tile the accumulator holds the tile's product added to
  zeros; after a later tile, the tile's product added to what the accumulator held; and on the last tile the output
  block is that sum, copied.  Every store is over a whole buffer, so the last store alone decides the contents, and a
  load after a store reads what was stored.
-/
import proofs.«112945_j52261162058329_1_alg».proof.Proof.KernelIdeal.GramRegion
import Idealize.ShloMosaic.Lib.Pipeline.Value

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer access are all zero. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- After a batch's first tile: the tile's product added to the stored zeros. -/
theorem firstAcc_eq (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : isFirst i) (hc1 : ¬isLast i)
    (x0 : Vec F S1x1024x128 .f32) :
    firstAcc c i arg2 harg2 arg3 harg3 arg4 harg4 hc0 hc1 x0 = k0_pay2 x0 (k0_pay1 (F := F)) := by
  unfold firstAcc
  rw [View.read_writes_eq_canon _ _ _ (firstAcc_cover c i arg2 harg2 arg3 harg3 arg4 harg4 hc0 hc1 x0)]
  unfold runFirst
  dsimp only
  sl_unfold_words
  rw [View.canon_cons_unit_zero (S := S128x128) zeroOff2]
  simp only [View.readAt_eq_ld, harg2.read_unread, View.ld_unit_zero (S := S1x1024x128) zeroOff3,
    View.readCov_unit_zero (S := S128x128) _ zeroOff2]

/-- After a middle tile: the tile's product added to what the accumulator held. -/
theorem middleAcc_eq (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : ¬isLast i)
    (x0 : Vec F S1x1024x128 .f32) (xs0 : Vec F S128x128 .f32) :
    middleAcc c i arg2 harg2 arg3 harg3 arg4 harg4 hc0 hc1 x0 xs0 = k0_pay2 x0 xs0 := by
  unfold middleAcc
  rw [View.read_writes_eq_canon _ _ _ (middleAcc_cover c i arg2 harg2 arg3 harg3 arg4 harg4 hc0 hc1 x0 xs0)]
  unfold runMiddle
  dsimp only
  sl_unfold_words
  rw [View.canon_unit_zero (S := S128x128) zeroOff2]
  simp only [View.readAt_eq_ld, harg2.read_unread, harg4.read_unread, View.ld_unit_zero (S := S1x1024x128) zeroOff3,
    View.ld_unit_zero (S := S128x128) zeroOff2]

/-- After the last tile: the same. -/
theorem lastAcc_eq (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) :
    lastAcc c i arg2 harg2 arg3 harg3 arg4 harg4 hc0 hc1 x0 xs0 = k0_pay2 x0 xs0 := by
  unfold lastAcc
  rw [View.read_writes_eq_canon _ _ _ (lastAcc_cover c i arg2 harg2 arg3 harg3 arg4 harg4 hc0 hc1 x0 xs0)]
  unfold runLast
  dsimp only
  sl_unfold_words
  rw [View.canon_unit_zero (S := S128x128) zeroOff2]
  simp only [View.readAt_eq_ld, harg2.read_unread, harg4.read_unread, View.ld_unit_zero (S := S1x1024x128) zeroOff3,
    View.ld_unit_zero (S := S128x128) zeroOff2]

/-- The output block on the last tile: that sum, copied. -/
theorem lastOut_eq (c : Dev nD) (i : grid0.Coords) (arg2 : Memref sig .tc .vmem S1x1024x128 .f32) (harg2 : arg2.IsWhole) (arg3 : Memref sig .tc .vmem S1x128x128 .f32) (harg3 : arg3.IsWhole) (arg4 : Memref sig .tc .vmem S128x128 .f32) (harg4 : arg4.IsWhole) (hc0 : ¬isFirst i) (hc1 : isLast i)
    (x0 : Vec F S1x1024x128 .f32) (xs0 : Vec F S128x128 .f32) :
    lastOut c i arg2 harg2 arg3 harg3 arg4 harg4 hc0 hc1 x0 xs0 = k0_pay3 (k0_pay2 x0 xs0) := by
  unfold lastOut
  rw [View.read_writes_eq_canon _ _ _ (lastOut_cover c i arg2 harg2 arg3 harg3 arg4 harg4 hc0 hc1 x0 xs0)]
  unfold runLast
  dsimp only
  sl_unfold_words
  rw [View.canon_unit_zero (S := S1x128x128) zeroOff3]
  simp only [View.readCov_unit_zero (S := S128x128) _ zeroOff2, View.readAt_eq_ld, harg2.read_unread, harg4.read_unread,
    View.ld_unit_zero (S := S1x1024x128) zeroOff3, View.ld_unit_zero (S := S128x128) zeroOff2]

end Cert.KernelIdeal.Run

end
-- ==== Proof.KernelIdeal.GramTile.lean ====
/-
  The Gram body's arithmetic at an index, at the ideal instance.  The reset value is zero everywhere; one step adds to
  entry (e, d) of the accumulator the tile's product Σ_r x[r, e] · x[r, d] — the matrix unit contracts the row axis of
  both operands, the change of format to bf16 and back is the identity —; the copy to the output block only adds a
  leading unit axis.
-/
import proofs.«112945_j52261162058329_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx
open Cert.KernelIdeal Cert.KernelIdeal.Gen

/-! ## The matrix unit's operand indices

The product contracts axis 0 (the rows of the tile) of BOTH operands; axis 1 of the left operand is the result's row,
axis 1 of the right operand the result's column. -/

/-- Left operand, axis 0: the contraction position. -/
theorem lhs_gram_0 (i : S128x128.Idx) (q : Cert.KernelIdeal.dot_S1024x128_S1024x128_S128x128_0_0_1_1_n_n.contr.Idx) :
    (Cert.KernelIdeal.dot_S1024x128_S1024x128_S128x128_0_0_1_1_n_n.lhsIdx i q 0).val = (q ⟨0, by decide⟩).val :=
  Cert.KernelIdeal.dot_S1024x128_S1024x128_S128x128_0_0_1_1_n_n.lhsIdx_val_of_single rfl i q
/-- Left operand, axis 1: the result's row. -/
theorem lhs_gram_1 (i : S128x128.Idx) (q : Cert.KernelIdeal.dot_S1024x128_S1024x128_S128x128_0_0_1_1_n_n.contr.Idx) :
    (Cert.KernelIdeal.dot_S1024x128_S1024x128_S128x128_0_0_1_1_n_n.lhsIdx i q 1).val = (i 0).val := by
  unfold DotDims.lhsIdx
  rw [dif_neg (show ¬(1 : Fin S1024x128.rank) ∈ Cert.KernelIdeal.dot_S1024x128_S1024x128_S128x128_0_0_1_1_n_n.lhsBatch by decide), dif_pos (show (1 : Fin S1024x128.rank) ∈ Cert.KernelIdeal.dot_S1024x128_S1024x128_S128x128_0_0_1_1_n_n.lhsNonContracting by decide)]
  rfl
/-- Right operand, axis 0: the contraction position. -/
theorem rhs_gram_0 (i : S128x128.Idx) (q : Cert.KernelIdeal.dot_S1024x128_S1024x128_S128x128_0_0_1_1_n_n.contr.Idx) :
    (Cert.KernelIdeal.dot_S1024x128_S1024x128_S128x128_0_0_1_1_n_n.rhsIdx i q 0).val = (q ⟨0, by decide⟩).val :=
  Cert.KernelIdeal.dot_S1024x128_S1024x128_S128x128_0_0_1_1_n_n.rhsIdx_val_of_single rfl i q
/-- Right operand, axis 1: the result's column. -/
theorem rhs_gram_1 (i : S128x128.Idx) (q : Cert.KernelIdeal.dot_S1024x128_S1024x128_S128x128_0_0_1_1_n_n.contr.Idx) :
    (Cert.KernelIdeal.dot_S1024x128_S1024x128_S128x128_0_0_1_1_n_n.rhsIdx i q 1).val = (i 1).val := by
  unfold DotDims.rhsIdx
  rw [dif_neg (show ¬(1 : Fin S1024x128.rank) ∈ Cert.KernelIdeal.dot_S1024x128_S1024x128_S128x128_0_0_1_1_n_n.rhsBatch by decide), dif_pos (show (1 : Fin S1024x128.rank) ∈ Cert.KernelIdeal.dot_S1024x128_S1024x128_S128x128_0_0_1_1_n_n.rhsNonContracting by decide)]
  rfl

/-- The product of a 1024 x 128 matrix with itself over its rows, into the zero accumulator: entry (e, d) is
    Σ_r y[r, e] · y[r, d]. -/
theorem gramDot_apply (y : FVec Ideal S1024x128 .bf16) (e d : Fin 128) :
    matmul (F := Ideal) Cert.KernelIdeal.dot_S1024x128_S1024x128_S128x128_0_0_1_1_n_n none y y (constant (F := Ideal) S128x128 .f32 0x00000000#32) (ix2 e d)
      = ∑ r : Fin 1024, y (ix2 r e) * y (ix2 r d) := by
  simp only [matmul]
  rw [Ideal.matmul_constant_zero_apply, ← Equiv.sum_comp (ValueIdx.contrEquiv1 Cert.KernelIdeal.dot_S1024x128_S1024x128_S128x128_0_0_1_1_n_n 1024 rfl rfl).symm]
  refine Finset.sum_congr rfl fun k _ => ?_
  have hk := ValueIdx.contrEquiv1_symm_val Cert.KernelIdeal.dot_S1024x128_S1024x128_S128x128_0_0_1_1_n_n 1024 rfl rfl k
  have el : Cert.KernelIdeal.dot_S1024x128_S1024x128_S128x128_0_0_1_1_n_n.lhsIdx (ix2 e d) ((ValueIdx.contrEquiv1 Cert.KernelIdeal.dot_S1024x128_S1024x128_S128x128_0_0_1_1_n_n 1024 rfl rfl).symm k) = ix2 k e := funext fun a => Fin.ext (by
    match a with
    | ⟨0, _⟩ => exact (lhs_gram_0 _ _).trans hk
    | ⟨1, _⟩ => exact lhs_gram_1 _ _)
  have er : Cert.KernelIdeal.dot_S1024x128_S1024x128_S128x128_0_0_1_1_n_n.rhsIdx (ix2 e d) ((ValueIdx.contrEquiv1 Cert.KernelIdeal.dot_S1024x128_S1024x128_S128x128_0_0_1_1_n_n 1024 rfl rfl).symm k) = ix2 k d := funext fun a => Fin.ext (by
    match a with
    | ⟨0, _⟩ => exact (rhs_gram_0 _ _).trans hk
    | ⟨1, _⟩ => exact rhs_gram_1 _ _)
  rw [el, er]

/-- The reset value: zero at every entry. -/
theorem zeroAcc_apply (e d : Fin 128) : k0_pay1 (F := Ideal) (ix2 e d) = 0 := by
  unfold Gen.k0_pay1
  rw [shapeCast_self, broadcast_apply]
  exact Ideal.ofBits_zero_f32

/-- One step: entry (e, d) of the accumulator grows by the tile's Σ_r x[r, e] · x[r, d]. -/
theorem addTile_apply (x : Vec Ideal S1x1024x128 .f32) (prev : Vec Ideal S128x128 .f32) (e d : Fin 128) :
    k0_pay2 x prev (ix2 e d) = prev (ix2 e d) + ∑ r : Fin 1024, x (ix3 0 r e) * x (ix3 0 r d) := by
  unfold Gen.k0_pay2
  rw [shapeCast_self, addf_apply, gramDot_apply]
  refine congrArg (prev (ix2 e d) + ·) (Finset.sum_congr rfl fun r _ => ?_)
  rw [truncf_apply, truncf_apply, shapeCast_1ab_ab_apply, shapeCast_1ab_ab_apply]

/-- The copy to the output block: entry (0, e, d) of the block is entry (e, d) of the accumulator. -/
theorem copyOut_apply (v : Vec Ideal S128x128 .f32) (e d : Fin 128) : k0_pay3 v (ix3 0 e d) = v (ix2 e d) := by
  unfold Gen.k0_pay3
  exact shapeCast_ab_1ab_apply v _ 0 e d

end Cert.KernelIdeal.Val

end
-- ==== Proof.KernelIdeal.GramValue.lean ====
/-
  What the Gram region leaves in its output array, at the ideal instance.  For batch b the accumulator starts at zero
  on the first tile, each of the four tiles adds Σ_r x[b, 1024 t + r, e] · x[b, 1024 t + r, d], and the last tile's sum
  is written to block b of the array: entry (b, e, d) is Σ_s x[b, s, e] · x[b, s, d] over all 4096 rows.
-/
import proofs.«112945_j52261162058329_1_alg».proof.Proof.KernelIdeal.GramPieces
import proofs.«112945_j52261162058329_1_alg».proof.Proof.KernelIdeal.GramTile
import proofs.«112945_j52261162058329_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Run

variable (V : (c : Dev nD) → (b : Ref sig .tc) → Buf (Elt Ideal) ((c : Thread nD τ).loc b))

/-! ## Where the blocks sit

Grid point n = 4 b + k is tile k of batch b.  The x-window's block there is block (b, k, 0) of the input, 1024 rows
from row 1024 k; the output window's block is block (b, 0, 0) of the Gram array, the whole 128 x 128 matrix of batch b. -/

/-- The x-window's block index at point n: (n / 4, n % 4, 0). -/
theorem xIndex : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)

/-- The output window's block index at point n: (n / 4, 0, 0). -/
theorem gIndex : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- The input array as the region finds it, at its literal shape. -/
abbrev xarr (c : Dev nD) : Vec Ideal S4x4096x128 .f32 := V c main_arg0

/-- The x-window's block at point n, at its literal shape. -/
abbrev xblk (c : Dev nD) (t : Fin cfg0.N) : Vec Ideal S1x1024x128 .f32 := blk0 V c 0 t

/-- Entry (0, r, e) of the x-window's block at point n = 4 b + k is entry (b, 1024 k + r, e) of the input: a block's
    coordinate in the array is its block index times the block's size plus the coordinate inside the block. -/
theorem xblk_apply (c : Dev nD) (t : Fin cfg0.N) (b k : Fin 4) (ht : t.val = 4 * b.val + k.val) (r : Fin 1024) (e : Fin 128) :
    xblk V c t (ix3 0 r e) = xarr V c (ix3 b (Cert.Spec.tileRow k r) e) := by
  obtain ⟨e0, e1, e2⟩ := xIndex t
  have hb := b.isLt
  have hk := k.isLt
  show ((cfg0.win 0).blk t).view.read (Elt Ideal) (V c (Pipeline.arrRef spec0 0)) (ix3 0 r e) = V c main_arg0 (ix3 b (Cert.Spec.tileRow k r) e)
  rw [View.read_apply]
  show V c main_arg0 (((cfg0.win 0).blk t).view.emb (ix3 0 r e)) = V c main_arg0 (ix3 b (Cert.Spec.tileRow k r) e)
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = 1024 * k.val + r.val; omega
  | ⟨2, _⟩ => show win0_0.index t (2 : Fin 3) * 128 + 1 * e.val = e.val; omega

/-! ## The accumulator over a batch's four tiles -/

/-- The contributions of tiles 0, …, k of batch b to entry (e, d) of its Gram matrix, added in the order the grid
    visits them, onto the zero the first tile starts from. -/
def tilesThrough (x : Cert.Spec.SX.Idx → EReal) (b : Fin 4) (e d : Fin 128) : (k : ℕ) → k < 4 → EReal
  | 0, h => 0 + Cert.Spec.tileAt x b ⟨0, h⟩ e d
  | k + 1, h => tilesThrough x b e d k (Nat.lt_of_succ_lt h) + Cert.Spec.tileAt x b ⟨k + 1, h⟩ e d

/-- The tile's product at point n = 4 b + k, read off the input: Σ_r x[b, 1024 k + r, e] · x[b, 1024 k + r, d]. -/
theorem tileSum_eq (c : Dev nD) (t : Fin cfg0.N) (b k : Fin 4) (ht : t.val = 4 * b.val + k.val) (e d : Fin 128) :
    ∑ r : Fin 1024, xblk V c t (ix3 0 r e) * xblk V c t (ix3 0 r d) = Cert.Spec.tileAt (xarr V c) b k e d := by
  unfold Cert.Spec.tileAt
  refine Finset.sum_congr rfl fun r _ => ?_
  rw [xblk_apply V c t b k ht r e, xblk_apply V c t b k ht r d]

/-- THE INVARIANT: after point n = 4 b + k the accumulator's entry (e, d) is the sum of batch b's tiles 0, …, k.
    By induction on k: the first tile stores zeros and adds its product; every later tile adds its product to what
    the point before left. -/
theorem acc_apply (c : Dev nD) (b : Fin 4) : ∀ (k : ℕ) (hk : k < 4) (t : Fin cfg0.N), t.val = 4 * b.val + k →
    ∀ e d : Fin 128, (Run.gramAt V c t.val t.isLt).2 (ix2 e d) = tilesThrough (xarr V c) b e d k hk
  | 0, hk, t, ht, e, d => by
    have h0 : t.val % 4 = 0 := by omega
    have h1 : ¬t.val % 4 = 3 := by omega
    rw [gramAt_first V c t h0 h1]
    dsimp only
    rw [firstAcc_eq]
    refine (addTile_apply (xblk V c t) (k0_pay1 (F := Ideal)) e d).trans ?_
    rw [zeroAcc_apply e d, tileSum_eq V c t b ⟨0, hk⟩ ht e d]
    rfl
  | k + 1, hk, t, ht, e, d => by
    have h0 : ¬t.val % 4 = 0 := by omega
    have hN : t.val < 16 := lt_of_lt_of_eq t.isLt (show cfg0.N = 16 from N_0)
    have hprev : (Run.gramAt V c (t.val - 1) (Nat.lt_of_le_of_lt (Nat.sub_le _ _) t.isLt)).2 (ix2 e d)
        = tilesThrough (xarr V c) b e d k (Nat.lt_of_succ_lt hk) :=
      acc_apply c b k (Nat.lt_of_succ_lt hk) ⟨t.val - 1, Nat.lt_of_le_of_lt (Nat.sub_le _ _) t.isLt⟩ (by dsimp only; omega) e d
    by_cases h1 : t.val % 4 = 3
    · rw [gramAt_last V c t h0 h1]
      dsimp only
      rw [lastAcc_eq]
      refine (addTile_apply (xblk V c t) _ e d).trans ?_
      rw [hprev, tileSum_eq V c t b ⟨k + 1, hk⟩ ht e d]
      rfl
    · rw [gramAt_middle V c t h0 h1]
      dsimp only
      rw [middleAcc_eq]
      refine (addTile_apply (xblk V c t) _ e d).trans ?_
      rw [hprev, tileSum_eq V c t b ⟨k + 1, hk⟩ ht e d]
      rfl

/-- Through the last tile that is the whole Gram entry: the sum over all 4096 rows, regrouped as four tiles. -/
theorem tilesThrough_last (x : Cert.Spec.SX.Idx → EReal) (b : Fin 4) (e d : Fin 128) :
    tilesThrough x b e d 3 (by omega) = Cert.Spec.gramAt x b e d := by
  rw [Cert.Spec.gramAt_eq_tiles]
  show 0 + Cert.Spec.tileAt x b 0 e d + Cert.Spec.tileAt x b 1 e d + Cert.Spec.tileAt x b 2 e d + Cert.Spec.tileAt x b 3 e d = _
  rw [zero_add]

/-! ## From the flushed blocks to the array -/

/-- A 128 x 128 block that agrees, entry by entry, with the matrix of batch b of a [4, 128, 128] array IS the output
    window's block of that array at any point of batch b: the window's block index there is (b, 0, 0). -/
theorem gblk_read (t : Fin cfg0.N) (b : Fin 4) (hb : t.val / 4 = b.val) (G : Vec Ideal S4x128x128 .f32)
    (X : Vec Ideal S1x128x128 .f32) (h : ∀ e d : Fin 128, X (ix3 0 e d) = G (ix3 b e d)) :
    (cfg0.win 1).cut (grid0.coords t) X = ((cfg0.win 1).blk t).view.read (Elt Ideal) G := by
  obtain ⟨g0, g1, g2⟩ := gIndex t
  funext j
  have hj0 : (j 0).val < 1 := (j 0).isLt
  have hj1 : (j 1).val < 128 := (j 1).isLt
  have hj2 : (j 2).val < 128 := (j 2).isLt
  rw [View.read_apply]
  show X ((cfg0.win 1).xinj (grid0.coords t) j) = G (((cfg0.win 1).blk t).view.emb j)
  have eL : ((cfg0.win 1).xinj (grid0.coords t) j : S1x128x128.Idx) = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have eR : (((cfg0.win 1).blk t).view.emb j : S4x128x128.Idx) = ix3 b ⟨(j 1).val, hj1⟩ ⟨(j 2).val, hj2⟩ :=
    funext fun a => Fin.ext (by
      match a with
      | ⟨0, _⟩ => show win0_1.index t (0 : Fin 3) * 1 + 1 * (j 0).val = b.val; omega
      | ⟨1, _⟩ => show win0_1.index t (1 : Fin 3) * 128 + 1 * (j 1).val = (j 1).val; omega
      | ⟨2, _⟩ => show win0_1.index t (2 : Fin 3) * 128 + 1 * (j 2).val = (j 2).val; omega)
  exact (congrArg X eL).trans ((h _ _).trans (congrArg G eR).symm)

/-- WHAT A BATCH'S LAST TILE WRITES BACK is that batch's block of the specification's Gram array: the output block is
    the accumulator copied, and the accumulator there holds the sum through the last tile. -/
theorem gramFlushed (c : Dev nD) (t : Fin cfg0.N) (h3 : t.val % 4 = 3) :
    (dat0 (F := Ideal) V c).flushed 1 t
      = ((cfg0.win 1).blk t).view.read (Elt Ideal) (Cert.Spec.gram (V c main_arg0)) := by
  have h0 : ¬t.val % 4 = 0 := by omega
  have hN : t.val < 16 := lt_of_lt_of_eq t.isLt (show cfg0.N = 16 from N_0)
  show (cfg0.win 1).cut (grid0.coords t) ((dat0 (F := Ideal) V c).after 1 t) = _
  rw [dat0_after1]
  refine gblk_read t ⟨t.val / 4, by omega⟩ rfl (Cert.Spec.gram (xarr V c)) _ fun e d => ?_
  have hacc := acc_apply V c ⟨t.val / 4, by omega⟩ 3 (by omega) t (by dsimp only; omega) e d
  rw [gramAt_last V c t h0 h3] at hacc ⊢
  dsimp only at hacc ⊢
  rw [lastAcc_eq] at hacc
  rw [lastOut_eq]
  refine (copyOut_apply _ e d).trans (hacc.trans ?_)
  exact tilesThrough_last (xarr V c) ⟨t.val / 4, by omega⟩ e d

/-- Every entry (b, e, d) of the Gram array lies in the block written back at batch b's last tile, point 4 b + 3. -/
theorem gramCover (i : S4x128x128.Idx) :
    ∃ t : Fin cfg0.N, (cfg0.win 1).flush t = true ∧ i ∈ ((cfg0.win 1).blk t).view.set := by
  have hi0 : (i 0).val < 4 := (i 0).isLt
  have hi1 : (i 1).val < 128 := (i 1).isLt
  have hi2 : (i 2).val < 128 := (i 2).isLt
  have hlt : 4 * (i 0).val + 3 < cfg0.N := by rw [show cfg0.N = 16 from N_0]; omega
  refine ⟨⟨4 * (i 0).val + 3, hlt⟩, (flush0_1 _).mpr (by dsimp only; omega), ?_⟩
  obtain ⟨g0, g1, g2⟩ := gIndex ⟨4 * (i 0).val + 3, hlt⟩
  dsimp only at g0
  show i ∈ ((View.whole main_v0).slice (win0_1.rect ⟨4 * (i 0).val + 3, hlt⟩)).set
  rw [View.set_slice_whole, Rect.mem_set_unit]
  intro a
  match a with
  | ⟨0, _⟩ =>
    show win0_1.index ⟨4 * (i 0).val + 3, hlt⟩ (0 : Fin 3) * 1 ≤ (i 0).val
      ∧ (i 0).val < win0_1.index ⟨4 * (i 0).val + 3, hlt⟩ (0 : Fin 3) * 1 + 1
    omega
  | ⟨1, _⟩ =>
    show win0_1.index ⟨4 * (i 0).val + 3, hlt⟩ (1 : Fin 3) * 128 ≤ (i 1).val
      ∧ (i 1).val < win0_1.index ⟨4 * (i 0).val + 3, hlt⟩ (1 : Fin 3) * 128 + 128
    omega
  | ⟨2, _⟩ =>
    show win0_1.index ⟨4 * (i 0).val + 3, hlt⟩ (2 : Fin 3) * 128 ≤ (i 2).val
      ∧ (i 2).val < win0_1.index ⟨4 * (i 0).val + 3, hlt⟩ (2 : Fin 3) * 128 + 128
    omega

/-- The Gram array after the Gram region: the specification's Gram matrices of the argument array as found. -/
theorem gram_final (c : Dev nD) :
    (dat0 (F := Ideal) V c).arrAt 1 cfg0.N = Cert.Spec.gram (V c main_arg0) :=
  (dat0 (F := Ideal) V c).arrAt_eq_of_cover 1 (Cert.Spec.gram (V c main_arg0))
    (fun t ht => gramFlushed V c t ((flush0_1 t).mp ht)) gramCover

end Cert.KernelIdeal.Val

end
-- ==== Proof.RefValue.lean ====
/-
  The reference, read at an index.  Its first product is the batch of score matrices
  S[b, t, s] = Σ_e x[b, t, e] · x[b, s, e]; its second, out[b, t, d] = Σ_s S[b, t, s] · x[b, s, d].  Composed, the
  result at (b, t, d) is the specification's double sum.
-/
import proofs.«112945_j52261162058329_1_alg».proof.Proof.Gen.ReferenceIdeal.Run
import proofs.«112945_j52261162058329_1_alg».proof.Proof.Gen.ReferenceIdeal.Read
import proofs.«112945_j52261162058329_1_alg».proof.Proof.Spec

noncomputable section

namespace Cert.RefValue

open Idealize.ShloMosaic Idealize.ShloMosaic.ValueIdx
open Cert.ReferenceIdeal.Read

/-- The second product reads the score matrix at (b, t, s): its left index at (b, t, d) and summand s. -/
theorem lidx1_ix3 (b : Fin 4) (t : Fin 4096) (d : Fin 128) (s : Fin 4096) :
    lidx_main_v1 (ix3 b t d) s = ix3 b t s :=
  funext fun a => Fin.ext (by match a with | ⟨0, _⟩ => rfl | ⟨1, _⟩ => rfl | ⟨2, _⟩ => rfl)

/-- The second product reads the input at (b, s, d): its right index at (b, t, d) and summand s. -/
theorem ridx1_ix3 (b : Fin 4) (t : Fin 4096) (d : Fin 128) (s : Fin 4096) :
    ridx_main_v1 (ix3 b t d) s = ix3 b s d :=
  funext fun a => Fin.ext (by match a with | ⟨0, _⟩ => rfl | ⟨1, _⟩ => rfl | ⟨2, _⟩ => rfl)

/-- The first product's left index at (b, t, s) and summand e is (b, t, e). -/
theorem lidx0_ix3 (b : Fin 4) (t s : Fin 4096) (e : Fin 128) :
    lidx_main_v0 (ix3 b t s) e = ix3 b t e :=
  funext fun a => Fin.ext (by match a with | ⟨0, _⟩ => rfl | ⟨1, _⟩ => rfl | ⟨2, _⟩ => rfl)

/-- The first product's right index at (b, t, s) and summand e is (b, s, e). -/
theorem ridx0_ix3 (b : Fin 4) (t s : Fin 4096) (e : Fin 128) :
    ridx_main_v0 (ix3 b t s) e = ix3 b s e :=
  funext fun a => Fin.ext (by match a with | ⟨0, _⟩ => rfl | ⟨1, _⟩ => rfl | ⟨2, _⟩ => rfl)

/-- The reference's result, as a function of its argument array, is the specification's `refOut`:
    at (b, t, d) the sum over s of (the sum over e of x[b,t,e] · x[b,s,e]) times x[b,s,d]. -/
theorem ref_eq (x0 : Cert.Spec.SX.Idx → EReal) :
    Cert.ReferenceIdeal.Read.val_main_v1 (F := Ideal) x0 = Cert.Spec.refOut x0 := by
  funext i
  obtain ⟨b, t, d, rfl⟩ : ∃ (b : Fin 4) (t : Fin 4096) (d : Fin 128), i = ix3 b t d :=
    ⟨i 0, i 1, i 2, eq_ix3 i⟩
  rw [val_main_v1_apply]
  unfold Cert.Spec.refOut Cert.Spec.refAt
  refine Finset.sum_congr rfl fun s _ => ?_
  rw [val_main_v0_apply, lidx1_ix3, ridx1_ix3]
  refine congrArg (· * x0 (ix3 b s d)) ?_
  refine Finset.sum_congr rfl fun e _ => ?_
  rw [lidx0_ix3, ridx0_ix3]

end Cert.RefValue

end
-- ==== Proof.Finite.lean ====
/-
  The precondition, read back: "every |x[i]| is below +∞" says that every entry of the input is a real number —
  neither +∞ nor -∞ — which is what distributing a factor over a sum needs on the extended reals.
-/
import proofs.«112945_j52261162058329_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The scalar shape has exactly one index. -/
instance : Subsingleton Cert.Pre_finite_inputs.S_.Idx := ⟨fun a b => funext fun d => d.elim0⟩

/-- A one-bit word made from a truth value is 1 exactly when the truth value is true. -/
theorem ofBool_eq_one {c : Bool} (h : BitVec.ofBool c = 1#1) : c = true := by
  cases c
  · exact absurd h (by decide)
  · rfl

/-- The word 0x7F800000 denotes +∞. -/
theorem inf_word : Ideal.ofBits .f32 0x7F800000#32 = (⊤ : EReal) := by
  simp [Ideal.ofBits, Ideal.ieee]

/-- An extended real whose absolute value max a (-a) is strictly below +∞ is a real number:
    a = ⊤ makes the maximum ⊤, and a = ⊥ makes -a = ⊤ and so the maximum ⊤ again. -/
theorem real_of_abs_lt_top (a : EReal) (h : max a (-a) < ⊤) : ∃ r : ℝ, a = (r : EReal) := by
  induction a using EReal.rec with
  | bot =>
    exfalso
    rw [EReal.neg_bot, max_eq_right bot_le] at h
    exact lt_irrefl _ h
  | coe r => exact ⟨r, rfl⟩
  | top =>
    exfalso
    rw [max_eq_left le_top] at h
    exact lt_irrefl _ h

/-- If the printed precondition evaluates to 1 on `x`, every entry of `x` is (the coercion of) a real number. -/
theorem real_of_pre [Cert.Pre_finite_inputs.Facts] (x : FVec Ideal Cert.Pre_finite_inputs.S4x4096x128 .f32)
    (h : Cert.Pre_finite_inputs.fn (F := Ideal) x = fun _ => 1#1) :
    ∀ i, ∃ r : ℝ, x i = (r : EReal) := by
  intro i
  have h0 := congrFun h ValueIdx.ix0
  dsimp only [Cert.Pre_finite_inputs.fn] at h0
  have hi := Host.reduce_andi_all _ _ _ _ _ h0 i
  have hlt : max (x i) (-(x i)) < Ideal.ofBits .f32 0x7F800000#32 :=
    of_decide_eq_true (ofBool_eq_one hi)
  rw [inf_word] at hlt
  exact real_of_abs_lt_top (x i) hlt

end Cert.Finite

end
-- ==== Proof.lean ====
/-
  The certificate's claim.  Both programs compute, for each batch b with X = x[b] a 4096 x 128 matrix, the product
  X Xᵀ X.  The reference forms the 4096 x 4096 scores X Xᵀ first and multiplies by X; the kernel forms the 128 x 128
  Gram matrix Xᵀ X first — in one pallas_call that accumulates it over four tiles of 1024 rows — and multiplies X by it
  in a second.  On the extended reals the two agree entry by entry because matrix multiplication is associative,
  which there needs every entry of x to be a real number: that is the precondition.  The change of format to bf16
  before each matrix product is the identity at the ideal instance, and the ideal pass rewrote nothing, so the
  idealization is the kernel's own text.

  The three frames: each program runs to the end, faults nowhere and leaves its argument array as launched — the
  kernel's two readings by following the unscoped buffers through the two regions, the reference's by its run.
-/
import proofs.«112945_j52261162058329_1_alg».proof.Defs
import proofs.«112945_j52261162058329_1_alg».proof.Proof.Gen.Kernel
import proofs.«112945_j52261162058329_1_alg».proof.Proof.Gen.KernelIdeal
import proofs.«112945_j52261162058329_1_alg».proof.Proof.Gen.ReferenceIdeal
import proofs.«112945_j52261162058329_1_alg».proof.Proof.Gen.Pre_finite_inputs
import proofs.«112945_j52261162058329_1_alg».proof.Proof.Gen.ReferenceIdeal.Run
import proofs.«112945_j52261162058329_1_alg».proof.Proof.Gen.ReferenceIdeal.Read
import proofs.«112945_j52261162058329_1_alg».proof.Proof.Kernel.Launch
import proofs.«112945_j52261162058329_1_alg».proof.Proof.KernelIdeal.Launch
import proofs.«112945_j52261162058329_1_alg».proof.Proof.KernelIdeal.OutValue
import proofs.«112945_j52261162058329_1_alg».proof.Proof.KernelIdeal.GramValue
import proofs.«112945_j52261162058329_1_alg».proof.Proof.Spec
import proofs.«112945_j52261162058329_1_alg».proof.Proof.RefValue
import proofs.«112945_j52261162058329_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel (hKernel := Cert.Kernel.Gen.facts) (hPre_finite_inputs := Cert.Pre_finite_inputs.Gen.facts) :=
  fun m ρ _ => Cert.Kernel.Run.frame (F := Bits) m ρ

/-- So does its reading at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array, entry by entry: the product region leaves Σ_e x[b,t,e] · g[b,e,d] of the arrays it
    found; it found the argument as launched and the Gram array as the Gram region left it, which is Xᵀ X; and for a
    real-valued x that is the reference's Σ_s (Σ_e x[b,t,e] · x[b,s,e]) · x[b,s,d]. -/
theorem kernel_result (m : (ℓ : Loc Cert.KernelIdeal.nD Cert.KernelIdeal.τ Cert.KernelIdeal.sig) → Buf (Elt Ideal) ℓ)
    (c : Dev Cert.KernelIdeal.nD)
    (hreal : ∀ i, ∃ r : ℝ, m ((c.tc : Thread Cert.KernelIdeal.nD Cert.KernelIdeal.τ).loc Cert.KernelIdeal.main_arg0) i = (r : EReal)) :
    (Cert.KernelIdeal.Run.dat1 (F := Ideal) (Cert.KernelIdeal.Run.V1 m) c).arrAt 2 Cert.KernelIdeal.cfg1.N
      = Cert.Spec.refOut (m ((c.tc : Thread Cert.KernelIdeal.nD Cert.KernelIdeal.τ).loc Cert.KernelIdeal.main_arg0)) := by
  rw [Cert.KernelIdeal.Val.out_final, Cert.KernelIdeal.Run.V1_arg, Cert.KernelIdeal.Run.V1_gram, Cert.KernelIdeal.Val.gram_final]
  funext i
  exact Cert.Spec.kerAt_gram_eq_refAt _ hreal (i 0) (i 1) (i 2)

/-- At the ideal instance, from memories that agree on the argument, both programs end with the result array at
    the same function of it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.refOut (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (kernel_result m c (Cert.Finite.real_of_pre _ (hpre c))), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
